-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S512x500 : Shape := ⟨2, ![512, 500]⟩
abbrev S500 : Shape := ⟨1, ![500]⟩
abbrev S500x300 : Shape := ⟨2, ![500, 300]⟩
abbrev S300 : Shape := ⟨1, ![300]⟩
abbrev S300x100 : Shape := ⟨2, ![300, 100]⟩
abbrev S100 : Shape := ⟨1, ![100]⟩
abbrev S100x64 : Shape := ⟨2, ![100, 64]⟩
abbrev S64 : Shape := ⟨1, ![64]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S512x500 : S_.BroadcastsInDim S512x500 (![] : Fin 0 → Fin S512x500.rank)
  reducesTo_S512x500_S_d0_1 : S512x500.ReducesTo [0, 1] S_
  bcast_S_S500 : S_.BroadcastsInDim S500 (![] : Fin 0 → Fin S500.rank)
  reducesTo_S500_S_d0 : S500.ReducesTo [0] S_
  bcast_S_S500x300 : S_.BroadcastsInDim S500x300 (![] : Fin 0 → Fin S500x300.rank)
  reducesTo_S500x300_S_d0_1 : S500x300.ReducesTo [0, 1] S_
  bcast_S_S300 : S_.BroadcastsInDim S300 (![] : Fin 0 → Fin S300.rank)
  reducesTo_S300_S_d0 : S300.ReducesTo [0] S_
  bcast_S_S300x100 : S_.BroadcastsInDim S300x100 (![] : Fin 0 → Fin S300x100.rank)
  reducesTo_S300x100_S_d0_1 : S300x100.ReducesTo [0, 1] S_
  bcast_S_S100 : S_.BroadcastsInDim S100 (![] : Fin 0 → Fin S100.rank)
  reducesTo_S100_S_d0 : S100.ReducesTo [0] S_
  bcast_S_S100x64 : S_.BroadcastsInDim S100x64 (![] : Fin 0 → Fin S100x64.rank)
  reducesTo_S100x64_S_d0_1 : S100x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S100x64 .f32) (main_arg8 : FVec F S64 .f32) (main_v33 : IVec S_ 1) : IVec S_ 1 :=
  let main_v34 : FVec F S100x64 .f32 := Host.absf main_arg7
  let main_cst_12 : FVec F S_ .f32 := constant S_ .f32 0x7F800000#32
  let main_v35 : FVec F S100x64 .f32 := broadcastInDim S100x64 ![] bcast_S_S100x64 main_cst_12
  let main_v36 : IVec S100x64 1 := cmpf .olt main_v34 main_v35
  let main_c_13 : IVec S_ 1 := constantI S_ 1 1#1
  let main_v37 : IVec S_ 1 := (fun x v => Host.reduce IntOp.andi x v reducesTo_S100x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg4 : FVec F S300 .f32) (main_arg5 : FVec F S300x100 .f32) (main_arg6 : FVec F S100 .f32) (main_arg7 : FVec F S100x64 .f32) (main_arg8 : FVec F S64 .f32) (main_v13 : IVec S_ 1) (main_v16 : IVec S500x300 1) : IVec S_ 1 :=
  let main_c_5 : IVec S_ 1 := constantI S_ 1 1#1
  let main_v17 : IVec S_ 1 := (fun x v => Host.reduce IntOp.andi x v reducesTo_S500x300_S_d0_1 h_S_) main_v16 main_c_5
  let main_v18 : IVec S_ 1 := andi main_v13 main_v17
  let main_v19 : FVec F S300 .f32 := Host.absf main_arg4
  let main_cst_6 : FVec F S_ .f32 := constant S_ .f32 0x7F800000#32
  let main_v20 : FVec F S300 .f32 := broadcastInDim S300 ![] bcast_S_S300 main_cst_6
  let main_v21 : IVec S300 1 := cmpf .olt main_v19 main_v20
  let main_c_7 : IVec S_ 1 := constantI S_ 1 1#1
  let main_v22 : IVec S_ 1 := (fun x v => Host.reduce IntOp.andi x v reducesTo_S300_S_d0 h_S_) main_v21 main_c_7
  let main_v23 : IVec S_ 1 := andi main_v18 main_v22
  let main_v24 : FVec F S300x100 .f32 := Host.absf main_arg5
  let main_cst_8 : FVec F S_ .f32 := constant S_ .f32 0x7F800000#32
  let main_v25 : FVec F S300x100 .f32 := broadcastInDim S300x100 ![] bcast_S_S300x100 main_cst_8
  let main_v26 : IVec S300x100 1 := cmpf .olt main_v24 main_v25
  let main_c_9 : IVec S_ 1 := constantI S_ 1 1#1
  let main_v27 : IVec S_ 1 := (fun x v => Host.reduce IntOp.andi x v reducesTo_S300x100_S_d0_1 h_S_) main_v26 main_c_9
  let main_v28 : IVec S_ 1 := andi main_v23 main_v27
  let main_v29 : FVec F S100 .f32 := Host.absf main_arg6
  let main_cst_10 : FVec F S_ .f32 := constant S_ .f32 0x7F800000#32
  let main_v30 : FVec F S100 .f32 := broadcastInDim S100 ![] bcast_S_S100 main_cst_10
  let main_v31 : IVec S100 1 := cmpf .olt main_v29 main_v30
  let main_c_11 : IVec S_ 1 := constantI S_ 1 1#1
  let main_v32 : IVec S_ 1 := (fun x v => Host.reduce IntOp.andi x v reducesTo_S100_S_d0 h_S_) main_v31 main_c_11
  let main_v33 : IVec S_ 1 := andi main_v28 main_v32
  fn_part2 (F := F) main_arg7 main_arg8 main_v33

def fn {F : FTy → Type} [FloatOps F] (main_arg0 : FVec F S65536x512 .f32) (main_arg1 : FVec F S512x500 .f32) (main_arg2 : FVec F S500 .f32) (main_arg3 : FVec F S500x300 .f32) (main_arg4 : FVec F S300 .f32) (main_arg5 : FVec F S300x100 .f32) (main_arg6 : FVec F S100 .f32) (main_arg7 : FVec F S100x64 .f32) (main_arg8 : FVec F S64 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S512x500 .f32 := Host.absf main_arg1
  let main_cst_0 : FVec F S_ .f32 := constant S_ .f32 0x7F800000#32
  let main_v5 : FVec F S512x500 .f32 := broadcastInDim S512x500 ![] bcast_S_S512x500 main_cst_0
  let main_v6 : IVec S512x500 1 := cmpf .olt main_v4 main_v5
  let main_c_1 : IVec S_ 1 := constantI S_ 1 1#1
  let main_v7 : IVec S_ 1 := (fun x v => Host.reduce IntOp.andi x v reducesTo_S512x500_S_d0_1 h_S_) main_v6 main_c_1
  let main_v8 : IVec S_ 1 := andi main_v3 main_v7
  let main_v9 : FVec F S500 .f32 := Host.absf main_arg2
  let main_cst_2 : FVec F S_ .f32 := constant S_ .f32 0x7F800000#32
  let main_v10 : FVec F S500 .f32 := broadcastInDim S500 ![] bcast_S_S500 main_cst_2
  let main_v11 : IVec S500 1 := cmpf .olt main_v9 main_v10
  let main_c_3 : IVec S_ 1 := constantI S_ 1 1#1
  let main_v12 : IVec S_ 1 := (fun x v => Host.reduce IntOp.andi x v reducesTo_S500_S_d0 h_S_) main_v11 main_c_3
  let main_v13 : IVec S_ 1 := andi main_v8 main_v12
  let main_v14 : FVec F S500x300 .f32 := Host.absf main_arg3
  let main_cst_4 : FVec F S_ .f32 := constant S_ .f32 0x7F800000#32
  let main_v15 : FVec F S500x300 .f32 := broadcastInDim S500x300 ![] bcast_S_S500x300 main_cst_4
  let main_v16 : IVec S500x300 1 := cmpf .olt main_v14 main_v15
  fn_part1 (F := F) main_arg4 main_arg5 main_arg6 main_arg7 main_arg8 main_v13 main_v16
-- ==== Kernel.lean ====
abbrev S65536x512 : Shape := ⟨2, ![65536, 512]⟩
abbrev S512x500 : Shape := ⟨2, ![512, 500]⟩
abbrev S500 : Shape := ⟨1, ![500]⟩
abbrev S500x300 : Shape := ⟨2, ![500, 300]⟩
abbrev S300 : Shape := ⟨1, ![300]⟩
abbrev S300x100 : Shape := ⟨2, ![300, 100]⟩
abbrev S100 : Shape := ⟨1, ![100]⟩
abbrev S100x64 : Shape := ⟨2, ![100, 64]⟩
abbrev S64 : Shape := ⟨1, ![64]⟩
abbrev S65536x64 : Shape := ⟨2, ![65536, 64]⟩
abbrev S2048x512 : Shape := ⟨2, ![2048, 512]⟩
abbrev S2048x64 : Shape := ⟨2, ![2048, 64]⟩
abbrev S2048x500 : Shape := ⟨2, ![2048, 500]⟩
abbrev S1x500 : Shape := ⟨2, ![1, 500]⟩
abbrev S2048x300 : Shape := ⟨2, ![2048, 300]⟩
abbrev S1x300 : Shape := ⟨2, ![1, 300]⟩
abbrev S2048x100 : Shape := ⟨2, ![2048, 100]⟩
abbrev S1x100 : Shape := ⟨2, ![1, 100]⟩
abbrev S1x64 : Shape := ⟨2, ![1, 64]⟩
abbrev S2048x63 : Shape := ⟨2, ![2048, 63]⟩
abbrev S2048x1 : Shape := ⟨2, ![2048, 1]⟩
abbrev S2048 : Shape := ⟨1, ![2048]⟩

abbrev nBuf : Space → Nat
  | .hbm => 10
  | .vmem => 12
  | .smem => 0
  | _ => 0

abbrev bufTy : (tb : Table) → Fin (tcTables nBuf tb) → BufTy
  | .hbm, ⟨0, _⟩ => ⟨S65536x512, .f32⟩
  | .hbm, ⟨1, _⟩ => ⟨S512x500, .f32⟩
  | .hbm, ⟨2, _⟩ => ⟨S500, .f32⟩
  | .hbm, ⟨3, _⟩ => ⟨S500x300, .f32⟩
  | .hbm, ⟨4, _⟩ => ⟨S300, .f32⟩
  | .hbm, ⟨5, _⟩ => ⟨S300x100, .f32⟩
  | .hbm, ⟨6, _⟩ => ⟨S100, .f32⟩
  | .hbm, ⟨7, _⟩ => ⟨S100x64, .f32⟩
  | .hbm, ⟨8, _⟩ => ⟨S64, .f32⟩
  | .hbm, ⟨9, _⟩ => ⟨S65536x64, .f32⟩
  | .local _ .vmem, ⟨0, _⟩ => ⟨S2048x512, .f32⟩
  | .local _ .vmem, ⟨1, _⟩ => ⟨S2048x512, .f32⟩
  | .local _ .vmem, ⟨2, _⟩ => ⟨S512x500, .f32⟩
  | .local _ .vmem, ⟨3, _⟩ => ⟨S500, .f32⟩
  | .local _ .vmem, ⟨4, _⟩ => ⟨S500x300, .f32⟩
  | .local _ .vmem, ⟨5, _⟩ => ⟨S300, .f32⟩
  | .local _ .vmem, ⟨6, _⟩ => ⟨S300x100, .f32⟩
  | .local _ .vmem, ⟨7, _⟩ => ⟨S100, .f32⟩
  | .local _ .vmem, ⟨8, _⟩ => ⟨S100x64, .f32⟩
  | .local _ .vmem, ⟨9, _⟩ => ⟨S64, .f32⟩
  | .local _ .vmem, ⟨10, _⟩ => ⟨S2048x64, .f32⟩
  | .local _ .vmem, ⟨11, _⟩ => ⟨S2048x64, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x500 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S500 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S500x300 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S300 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S300x100 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S100 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S100x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S512x500_S512x500_0_0 : ∀ a, (![0, 0] : Fin 2 → Nat) a + S512x500.size a ≤ S512x500.size a
  h_S512x500 : 0 < S512x500.numel
  inb_S500_S500_0 : ∀ a, (![0] : Fin 1 → Nat) a + S500.size a ≤ S500.size a
  h_S500 : 0 < S500.numel
  shapeCasts_S500_S1x500 : S500.ShapeCasts S1x500
  broadcasts_S1x500_S2048x500 : S1x500.Broadcasts S2048x500
  inb_S500x300_S500x300_0_0 : ∀ a, (![0, 0] : Fin 2 → Nat) a + S500x300.size a ≤ S500x300.size a
  h_S500x300 : 0 < S500x300.numel
  inb_S300_S300_0 : ∀ a, (![0] : Fin 1 → Nat) a + S300.size a ≤ S300.size a
  h_S300 : 0 < S300.numel
  shapeCasts_S300_S1x300 : S300.ShapeCasts S1x300
  broadcasts_S1x300_S2048x300 : S1x300.Broadcasts S2048x300
  inb_S300x100_S300x100_0_0 : ∀ a, (![0, 0] : Fin 2 → Nat) a + S300x100.size a ≤ S300x100.size a
  h_S300x100 : 0 < S300x100.numel
  inb_S100_S100_0 : ∀ a, (![0] : Fin 1 → Nat) a + S100.size a ≤ S100.size a
  h_S100 : 0 < S100.numel
  shapeCasts_S100_S1x100 : S100.ShapeCasts S1x100
  broadcasts_S1x100_S2048x100 : S1x100.Broadcasts S2048x100
  inb_S100x64_S100x64_0_0 : ∀ a, (![0, 0] : Fin 2 → Nat) a + S100x64.size a ≤ S100x64.size a
  h_S100x64 : 0 < S100x64.numel
  inb_S64_S64_0 : ∀ a, (![0] : Fin 1 → Nat) a + S64.size a ≤ S64.size a
  h_S64 : 0 < S64.numel
  shapeCasts_S64_S1x64 : S64.ShapeCasts S1x64
  broadcasts_S1x64_S2048x64 : S1x64.Broadcasts S2048x64
  slices_S2048x64_o0_0_S2048x63 : S2048x64.Slices ![0, 0] S2048x63
  slices_S2048x64_o0_63_S2048x1 : S2048x64.Slices ![0, 63] S2048x1
  reduces_S2048x63_S2048 : S2048x63.Reduces [1] S2048
  shapeCasts_S2048_S2048x1 : S2048.ShapeCasts S2048x1
  broadcasts_S2048x1_S2048x63 : S2048x1.Broadcasts S2048x63
  concatenates_S2048x63_S2048x1_S2048x64_d1 : Shape.Concatenates [S2048x63, S2048x1] S2048x64 1
  inb_S2048x64_S2048x64_0_0 : ∀ a, (![0, 0] : Fin 2 → Nat) a + S2048x64.size a ≤ S2048x64.size a
  h_S2048x64 : 0 < S2048x64.numel
  dot_S2048x512_S512x500_S2048x500_1_0_0_1_n_n_wf : DotDims.WF S2048x512 S512x500 S2048x500 [1] [0] [0] [1] [] []
  dot_S2048x500_S500x300_S2048x300_1_0_0_1_n_n_wf : DotDims.WF S2048x500 S500x300 S2048x300 [1] [0] [0] [1] [] []
  dot_S2048x300_S300x100_S2048x100_1_0_0_1_n_n_wf : DotDims.WF S2048x300 S300x100 S2048x100 [1] [0] [0] [1] [] []
  dot_S2048x100_S100x64_S2048x64_1_0_0_1_n_n_wf : DotDims.WF S2048x100 S100x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S65536x512.size a
  hwx0_0 : ∀ i : grid0.Coords, EltTy.bits .f32 = 32 ∨ (Rect.block (s := S65536x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x500.size a ≤ S512x500.size a
  hwx0_1 : ∀ i : grid0.Coords, EltTy.bits .f32 = 32 ∨ (Rect.block (s := S512x500) S512x500.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S500.size a ≤ S500.size a
  hwx0_2 : ∀ i : grid0.Coords, EltTy.bits .f32 = 32 ∨ (Rect.block (s := S500) S500.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S500x300.size a ≤ S500x300.size a
  hwx0_3 : ∀ i : grid0.Coords, EltTy.bits .f32 = 32 ∨ (Rect.block (s := S500x300) S500x300.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S300.size a ≤ S300.size a
  hwx0_4 : ∀ i : grid0.Coords, EltTy.bits .f32 = 32 ∨ (Rect.block (s := S300) S300.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S300x100.size a ≤ S300x100.size a
  hwx0_5 : ∀ i : grid0.Coords, EltTy.bits .f32 = 32 ∨ (Rect.block (s := S300x100) S300x100.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S100.size a ≤ S100.size a
  hwx0_6 : ∀ i : grid0.Coords, EltTy.bits .f32 = 32 ∨ (Rect.block (s := S100) S100.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S100x64.size a ≤ S100x64.size a
  hwx0_7 : ∀ i : grid0.Coords, EltTy.bits .f32 = 32 ∨ (Rect.block (s := S100x64) S100x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x64.size a ≤ S65536x64.size a
  hwx0_9 : ∀ i : grid0.Coords, EltTy.bits .f32 = 32 ∨ (Rect.block (s := S65536x64) S2048x64.size (cc0_transform_9 i) (hinb0_9 i)).WholeWords (EltTy.packing .f32)

variable [Facts₀]

def dot_S2048x512_S512x500_S2048x500_1_0_0_1_n_n : DotDims S2048x512 S512x500 S2048x500 where
  lhsContracting := [1]
  rhsContracting := [0]
  lhsNonContracting := [0]
  rhsNonContracting := [1]
  lhsBatch := []
  rhsBatch := []
  wf := dot_S2048x512_S512x500_S2048x500_1_0_0_1_n_n_wf
def dot_S2048x500_S500x300_S2048x300_1_0_0_1_n_n : DotDims S2048x500 S500x300 S2048x300 where
  lhsContracting := [1]
  rhsContracting := [0]
  lhsNonContracting := [0]
  rhsNonContracting := [1]
  lhsBatch := []
  rhsBatch := []
  wf := dot_S2048x500_S500x300_S2048x300_1_0_0_1_n_n_wf
def dot_S2048x300_S300x100_S2048x100_1_0_0_1_n_n : DotDims S2048x300 S300x100 S2048x100 where
  lhsContracting := [1]
  rhsContracting := [0]
  lhsNonContracting := [0]
  rhsNonContracting := [1]
  lhsBatch := []
  rhsBatch := []
  wf := dot_S2048x300_S300x100_S2048x100_1_0_0_1_n_n_wf
def dot_S2048x100_S100x64_S2048x64_1_0_0_1_n_n : DotDims S2048x100 S100x64 S2048x64 where
  lhsContracting := [1]
  rhsContracting := [0]
  lhsNonContracting := [0]
  rhsNonContracting := [1]
  lhsBatch := []
  rhsBatch := []
  wf := dot_S2048x100_S100x64_S2048x64_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x500.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S500.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S500x300.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S300.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S300x100.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S100.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S100x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0) S2048x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S65536x512 : Shape := ⟨2, ![65536, 512]⟩
abbrev S512x500 : Shape := ⟨2, ![512, 500]⟩
abbrev S500 : Shape := ⟨1, ![500]⟩
abbrev S500x300 : Shape := ⟨2, ![500, 300]⟩
abbrev S300 : Shape := ⟨1, ![300]⟩
abbrev S300x100 : Shape := ⟨2, ![300, 100]⟩
abbrev S100 : Shape := ⟨1, ![100]⟩
abbrev S100x64 : Shape := ⟨2, ![100, 64]⟩
abbrev S64 : Shape := ⟨1, ![64]⟩
abbrev S65536x500 : Shape := ⟨2, ![65536, 500]⟩
abbrev S1x500 : Shape := ⟨2, ![1, 500]⟩
abbrev S_ : Shape := ⟨0, ![]⟩
abbrev S65536x300 : Shape := ⟨2, ![65536, 300]⟩
abbrev S1x300 : Shape := ⟨2, ![1, 300]⟩
abbrev S65536x100 : Shape := ⟨2, ![65536, 100]⟩
abbrev S1x100 : Shape := ⟨2, ![1, 100]⟩
abbrev S65536x64 : Shape := ⟨2, ![65536, 64]⟩
abbrev S1x64 : Shape := ⟨2, ![1, 64]⟩
abbrev S65536x63 : Shape := ⟨2, ![65536, 63]⟩
abbrev S65536x1 : Shape := ⟨2, ![65536, 1]⟩
abbrev S65536 : Shape := ⟨1, ![65536]⟩

abbrev nBuf : Space → Nat
  | .hbm => 66
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S512x500, .f32⟩
  | .hbm, ⟨2, _⟩ => ⟨S500, .f32⟩
  | .hbm, ⟨3, _⟩ => ⟨S500x300, .f32⟩
  | .hbm, ⟨4, _⟩ => ⟨S300, .f32⟩
  | .hbm, ⟨5, _⟩ => ⟨S300x100, .f32⟩
  | .hbm, ⟨6, _⟩ => ⟨S100, .f32⟩
  | .hbm, ⟨7, _⟩ => ⟨S100x64, .f32⟩
  | .hbm, ⟨8, _⟩ => ⟨S64, .f32⟩
  | .hbm, ⟨9, _⟩ => ⟨S65536x500, .f32⟩
  | .hbm, ⟨10, _⟩ => ⟨S1x500, .f32⟩
  | .hbm, ⟨11, _⟩ => ⟨S65536x500, .f32⟩
  | .hbm, ⟨12, _⟩ => ⟨S65536x500, .f32⟩
  | .hbm, ⟨13, _⟩ => ⟨S_, .f32⟩
  | .hbm, ⟨14, _⟩ => ⟨S65536x500, .f32⟩
  | .hbm, ⟨15, _⟩ => ⟨S65536x500, .f32⟩
  | .hbm, ⟨16, _⟩ => ⟨S65536x300, .f32⟩
  | .hbm, ⟨17, _⟩ => ⟨S1x300, .f32⟩
  | .hbm, ⟨18, _⟩ => ⟨S65536x300, .f32⟩
  | .hbm, ⟨19, _⟩ => ⟨S65536x300, .f32⟩
  | .hbm, ⟨20, _⟩ => ⟨S_, .f32⟩
  | .hbm, ⟨21, _⟩ => ⟨S65536x300, .f32⟩
  | .hbm, ⟨22, _⟩ => ⟨S65536x300, .f32⟩
  | .hbm, ⟨23, _⟩ => ⟨S65536x100, .f32⟩
  | .hbm, ⟨24, _⟩ => ⟨S1x100, .f32⟩
  | .hbm, ⟨25, _⟩ => ⟨S65536x100, .f32⟩
  | .hbm, ⟨26, _⟩ => ⟨S65536x100, .f32⟩
  | .hbm, ⟨27, _⟩ => ⟨S_, .f32⟩
  | .hbm, ⟨28, _⟩ => ⟨S65536x100, .f32⟩
  | .hbm, ⟨29, _⟩ => ⟨S65536x100, .f32⟩
  | .hbm, ⟨30, _⟩ => ⟨S65536x64, .f32⟩
  | .hbm, ⟨31, _⟩ => ⟨S1x64, .f32⟩
  | .hbm, ⟨32, _⟩ => ⟨S65536x64, .f32⟩
  | .hbm, ⟨33, _⟩ => ⟨S65536x64, .f32⟩
  | .hbm, ⟨34, _⟩ => ⟨S65536x63, .f32⟩
  | .hbm, ⟨35, _⟩ => ⟨S65536x63, .f32⟩
  | .hbm, ⟨36, _⟩ => ⟨S65536x1, .f32⟩
  | .hbm, ⟨37, _⟩ => ⟨S65536x1, .f32⟩
  | .hbm, ⟨38, _⟩ => ⟨S65536x1, .f32⟩
  | .hbm, ⟨39, _⟩ => ⟨S_, .f32⟩
  | .hbm, ⟨40, _⟩ => ⟨S65536x1, .f32⟩
  | .hbm, ⟨41, _⟩ => ⟨S65536x1, .f32⟩
  | .hbm, ⟨42, _⟩ => ⟨S_, .f32⟩
  | .hbm, ⟨43, _⟩ => ⟨S65536x1, .f32⟩
  | .hbm, ⟨44, _⟩ => ⟨S65536x1, .f32⟩
  | .hbm, ⟨45, _⟩ => ⟨S_, .f32⟩
  | .hbm, ⟨46, _⟩ => ⟨S65536x63, .f32⟩
  | .hbm, ⟨47, _⟩ => ⟨S65536x63, .i1⟩
  | .hbm, ⟨48, _⟩ => ⟨S_, .f32⟩
  | .hbm, ⟨49, _⟩ => ⟨S_, .f32⟩
  | .hbm, ⟨50, _⟩ => ⟨S65536x63, .f32⟩
  | .hbm, ⟨51, _⟩ => ⟨S65536x63, .f32⟩
  | .hbm, ⟨52, _⟩ => ⟨S_, .f32⟩
  | .hbm, ⟨53, _⟩ => ⟨S65536, .f32⟩
  | .hbm, ⟨54, _⟩ => ⟨S65536x1, .f32⟩
  | .hbm, ⟨55, _⟩ => ⟨S_, .f32⟩
  | .hbm, ⟨56, _⟩ => ⟨S65536x1, .f32⟩
  | .hbm, ⟨57, _⟩ => ⟨S65536x1, .i1⟩
  | .hbm, ⟨58, _⟩ => ⟨S_, .f32⟩
  | .hbm, ⟨59, _⟩ => ⟨S_, .f32⟩
  | .hbm, ⟨60, _⟩ => ⟨S65536x1, .f32⟩
  | .hbm, ⟨61, _⟩ => ⟨S65536x1, .f32⟩
  | .hbm, ⟨62, _⟩ => ⟨S65536x63, .f32⟩
  | .hbm, ⟨63, _⟩ => ⟨S65536x63, .f32⟩
  | .hbm, ⟨64, _⟩ => ⟨S65536x63, .f32⟩
  | .hbm, ⟨65, _⟩ => ⟨S65536x64, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_cst : Ref sig .tc := ⟨.hbm, 20, rfl⟩
abbrev main_call1_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_call2_cst : Ref sig .tc := ⟨.hbm, 27, rfl⟩
abbrev main_call2_v0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst : Ref sig .tc := ⟨.hbm, 39, rfl⟩
abbrev main_v24 : Ref sig .tc := ⟨.hbm, 40, rfl⟩
abbrev main_v25 : Ref sig .tc := ⟨.hbm, 41, rfl⟩
abbrev main_cst_0 : Ref sig .tc := ⟨.hbm, 42, rfl⟩
abbrev main_v26 : Ref sig .tc := ⟨.hbm, 43, rfl⟩
abbrev main_v27 : Ref sig .tc := ⟨.hbm, 44, rfl⟩
abbrev main_cst_1 : Ref sig .tc := ⟨.hbm, 45, rfl⟩
abbrev main_v28 : Ref sig .tc := ⟨.hbm, 46, rfl⟩
abbrev main_v29 : Ref sig .tc := ⟨.hbm, 47, rfl⟩
abbrev main_cst_2 : Ref sig .tc := ⟨.hbm, 48, rfl⟩
abbrev main_call3_v0 : Ref sig .tc := ⟨.hbm, 49, rfl⟩
abbrev main_call3_v1 : Ref sig .tc := ⟨.hbm, 50, rfl⟩
abbrev main_v30 : Ref sig .tc := ⟨.hbm, 51, rfl⟩
abbrev main_cst_3 : Ref sig .tc := ⟨.hbm, 52, rfl⟩
abbrev main_v31 : Ref sig .tc := ⟨.hbm, 53, rfl⟩
abbrev main_v32 : Ref sig .tc := ⟨.hbm, 54, rfl⟩
abbrev main_cst_4 : Ref sig .tc := ⟨.hbm, 55, rfl⟩
abbrev main_v33 : Ref sig .tc := ⟨.hbm, 56, rfl⟩
abbrev main_v34 : Ref sig .tc := ⟨.hbm, 57, rfl⟩
abbrev main_cst_5 : Ref sig .tc := ⟨.hbm, 58, rfl⟩
abbrev main_call4_v0 : Ref sig .tc := ⟨.hbm, 59, rfl⟩
abbrev main_call4_v1 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩

abbrev nD : Nat := 1
abbrev τ : Topo := Topo.v7x

variable {F : FTy → Type} [FloatOps F]

class Facts₀ : Prop where
  bcast_S500_S1x500_1 : S500.BroadcastsInDim S1x500 (![1] : Fin 1 → Fin S1x500.rank)
  bcast_S1x500_S65536x500_0_1 : S1x500.BroadcastsInDim S65536x500 (![0, 1] : Fin 2 → Fin S65536x500.rank)
  bcast_S_S65536x500 : S_.BroadcastsInDim S65536x500 (![] : Fin 0 → Fin S65536x500.rank)
  bcast_S300_S1x300_1 : S300.BroadcastsInDim S1x300 (![1] : Fin 1 → Fin S1x300.rank)
  bcast_S1x300_S65536x300_0_1 : S1x300.BroadcastsInDim S65536x300 (![0, 1] : Fin 2 → Fin S65536x300.rank)
  bcast_S_S65536x300 : S_.BroadcastsInDim S65536x300 (![] : Fin 0 → Fin S65536x300.rank)
  bcast_S100_S1x100_1 : S100.BroadcastsInDim S1x100 (![1] : Fin 1 → Fin S1x100.rank)
  bcast_S1x100_S65536x100_0_1 : S1x100.BroadcastsInDim S65536x100 (![0, 1] : Fin 2 → Fin S65536x100.rank)
  bcast_S_S65536x100 : S_.BroadcastsInDim S65536x100 (![] : Fin 0 → Fin S65536x100.rank)
  bcast_S64_S1x64_1 : S64.BroadcastsInDim S1x64 (![1] : Fin 1 → Fin S1x64.rank)
  bcast_S1x64_S65536x64_0_1 : S1x64.BroadcastsInDim S65536x64 (![0, 1] : Fin 2 → Fin S65536x64.rank)
  slices_S65536x64_S65536x63_0_0 : S65536x64.Slices ![0, 0] S65536x63
  slices_S65536x64_S65536x1_0_63 : S65536x64.Slices ![0, 63] S65536x1
  bcast_S_S65536x1 : S_.BroadcastsInDim S65536x1 (![] : Fin 0 → Fin S65536x1.rank)
  bcast_S_S65536x63 : S_.BroadcastsInDim S65536x63 (![] : Fin 0 → Fin S65536x63.rank)
  reducesTo_S65536x63_S65536_d1 : S65536x63.ReducesTo [1] S65536
  h_S_ : 0 < S_.numel
  bcast_S65536_S65536x1_0 : S65536.BroadcastsInDim S65536x1 (![0] : Fin 1 → Fin S65536x1.rank)
  bcast_S65536x1_S65536x63_0_1 : S65536x1.BroadcastsInDim S65536x63 (![0, 1] : Fin 2 → Fin S65536x63.rank)
  concatenates_S65536x63_S65536x1_S65536x64_d1 : Shape.Concatenates [S65536x63, S65536x1] S65536x64 1
  dot_S65536x512_S512x500_S65536x500_1_0_0_1_n_n_wf : DotDims.WF S65536x512 S512x500 S65536x500 [1] [0] [0] [1] [] []
  dot_S65536x500_S500x300_S65536x300_1_0_0_1_n_n_wf : DotDims.WF S65536x500 S500x300 S65536x300 [1] [0] [0] [1] [] []
  dot_S65536x300_S300x100_S65536x100_1_0_0_1_n_n_wf : DotDims.WF S65536x300 S300x100 S65536x100 [1] [0] [0] [1] [] []
  dot_S65536x100_S100x64_S65536x64_1_0_0_1_n_n_wf : DotDims.WF S65536x100 S100x64 S65536x64 [1] [0] [0] [1] [] []

variable [Facts₀]

def dot_S65536x512_S512x500_S65536x500_1_0_0_1_n_n : DotDims S65536x512 S512x500 S65536x500 where
  lhsContracting := [1]
  rhsContracting := [0]
  lhsNonContracting := [0]
  rhsNonContracting := [1]
  lhsBatch := []
  rhsBatch := []
  wf := dot_S65536x512_S512x500_S65536x500_1_0_0_1_n_n_wf
def dot_S65536x500_S500x300_S65536x300_1_0_0_1_n_n : DotDims S65536x500 S500x300 S65536x300 where
  lhsContracting := [1]
  rhsContracting := [0]
  lhsNonContracting := [0]
  rhsNonContracting := [1]
  lhsBatch := []
  rhsBatch := []
  wf := dot_S65536x500_S500x300_S65536x300_1_0_0_1_n_n_wf
def dot_S65536x300_S300x100_S65536x100_1_0_0_1_n_n : DotDims S65536x300 S300x100 S65536x100 where
  lhsContracting := [1]
  rhsContracting := [0]
  lhsNonContracting := [0]
  rhsNonContracting := [1]
  lhsBatch := []
  rhsBatch := []
  wf := dot_S65536x300_S300x100_S65536x100_1_0_0_1_n_n_wf
def dot_S65536x100_S100x64_S65536x64_1_0_0_1_n_n : DotDims S65536x100 S100x64 S65536x64 where
  lhsContracting := [1]
  rhsContracting := [0]
  lhsNonContracting := [0]
  rhsNonContracting := [1]
  lhsBatch := []
  rhsBatch := []
  wf := dot_S65536x100_S100x64_S65536x64_1_0_0_1_n_n_wf

class Facts : Prop extends Facts₀ where

variable [Facts]
-- ==== Proof.LibAffineRows.lean ====
/-
  A dense layer read row by row, at the ideal values.

  A kernel that tiles the rows of a matrix `X` computes, on each tile `xb`, the product `xb · w` by a matrix unit
  (operands narrowed to bf16, accumulated into zeros) and adds a bias row kept as a `[1, M]` block; the plain program
  computes `X · w` by one `dot_general` and adds the bias vector `[M]` broadcast over the rows. Over the extended reals
  narrowing is the identity and both products are the textbook sum over the contracted index, so row `r` of the tile's
  result is row `n r` of the whole result as soon as row `r` of the tile is row `n r` of `X`
  (`affine_rows`), and the same after a `tanh` (`tanh_affine_rows`). Nothing here depends on the sizes.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Lib

open Idealize.ShloMosaic Idealize.ShloMosaic.ValueIdx

/-- The dimension numbers `d` describe the plain product of an `[R, K]` by a `[K, M]` matrix: one contracted index of
    extent `K`, which is the left operand's column and the right operand's row; the result's row is the left operand's
    row and its column the right operand's column. -/
structure PlainDot {R K M : ℕ} (d : DotDims ⟨2, ![R, K]⟩ ⟨2, ![K, M]⟩ ⟨2, ![R, M]⟩) : Prop where
  rank : d.contr.rank = 1
  size : d.contr.size ⟨0, by omega⟩ = K
  l0 : ∀ (i : (⟨2, ![R, M]⟩ : Shape).Idx) (q : d.contr.Idx), (d.lhsIdx i q 0).val = (i 0).val
  l1 : ∀ (i : (⟨2, ![R, M]⟩ : Shape).Idx) (q : d.contr.Idx), (d.lhsIdx i q 1).val = (q ⟨0, by omega⟩).val
  r0 : ∀ (i : (⟨2, ![R, M]⟩ : Shape).Idx) (q : d.contr.Idx), (d.rhsIdx i q 0).val = (q ⟨0, by omega⟩).val
  r1 : ∀ (i : (⟨2, ![R, M]⟩ : Shape).Idx) (q : d.contr.Idx), (d.rhsIdx i q 1).val = (i 1).val

variable {R K M : ℕ}

/-- The sum over the record's contraction index is the sum over `k < K` of `x (r, k) · w (k, c)`. -/
theorem PlainDot.sum_eq {d : DotDims ⟨2, ![R, K]⟩ ⟨2, ![K, M]⟩ ⟨2, ![R, M]⟩} (h : PlainDot d)
    (x : (⟨2, ![R, K]⟩ : Shape).Idx → EReal) (w : (⟨2, ![K, M]⟩ : Shape).Idx → EReal) (r : Fin R) (c : Fin M) :
    ∑ k : d.contr.Idx, x (d.lhsIdx (ix2 r c) k) * w (d.rhsIdx (ix2 r c) k) = ∑ k : Fin K, x (ix2 r k) * w (ix2 k c) := by
  rw [← Equiv.sum_comp (contrEquiv1 d K h.rank h.size).symm]
  refine Finset.sum_congr rfl fun k _ => ?_
  have hk := contrEquiv1_symm_val d K h.rank h.size k
  have el : d.lhsIdx (ix2 r c) ((contrEquiv1 d K h.rank h.size).symm k) = ix2 r k := funext fun a => Fin.ext (by
    match a with
    | ⟨0, _⟩ => exact h.l0 _ _
    | ⟨1, _⟩ => exact (h.l1 _ _).trans hk)
  have er : d.rhsIdx (ix2 r c) ((contrEquiv1 d K h.rank h.size).symm k) = ix2 k c := funext fun a => Fin.ext (by
    match a with
    | ⟨0, _⟩ => exact (h.r0 _ _).trans hk
    | ⟨1, _⟩ => exact h.r1 _ _)
  rw [el, er]

/-- A matrix unit's product of two narrowed operands into zeros, at `(r, c)`: the textbook sum. -/
theorem matmul_zero_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (ht : FTy.bits .bf16 < FTy.bits .f32)
    (r : Fin R) (c : Fin M) :
    matmul d none (truncf .bf16 x ht) (truncf .bf16 w ht) (constant ⟨2, ![R, M]⟩ .f32 0x00000000#32) (ix2 r c)
      = ∑ k : Fin K, x (ix2 r k) * w (ix2 k c) := by
  simp only [matmul]
  rw [Ideal.matmul_constant_zero_apply]
  exact h.sum_eq (fun i => x i) (fun i => w i) r c

/-- The host's `dot_general` at `(r, c)`: the same sum. -/
theorem dotGeneral_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (r : Fin R) (c : Fin M) :
    Host.dotGeneral d none x w (ix2 r c) = ∑ k : Fin K, x (ix2 r k) * w (ix2 k c) := by
  simp only [Host.dotGeneral]
  rw [Ideal.dotGeneral_apply]
  exact h.sum_eq (fun i => x i) (fun i => w i) r c

/-- A bias vector `[M]` made a row `[1, M]` and then broadcast over `N` rows reads, at `(n, q)`, the vector at `q`. -/
theorem bias_rows_apply {N : ℕ} (b : FVec Ideal ⟨1, ![M]⟩ .f32)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (n : Fin N) (q : Fin M) :
    broadcastInDim ⟨2, ![N, M]⟩ ![0, 1] h2 (broadcastInDim ⟨2, ![1, M]⟩ ![1] h1 b) (ix2 n q) = b (ix1 q) := by
  rw [broadcastInDim_apply _ h2 _ (ix2 n q) (ix2 (0 : Fin 1) q) (fun a => by
    match a with
    | ⟨0, _⟩ => show (0 : ℕ) = if (1 : ℕ) = 1 then 0 else n.val; rw [if_pos rfl]
    | ⟨1, _⟩ => show q.val = if M = 1 then 0 else q.val; split <;> [(have := q.isLt; omega); rfl])]
  exact broadcastInDim_apply _ h1 b (ix2 (0 : Fin 1) q) (ix1 q) (fun a => by
    match a with
    | ⟨0, _⟩ => show q.val = if M = 1 then 0 else q.val; split <;> [(have := q.isLt; omega); rfl])

/-- ROW BY ROW: where row `r` of the tile `xb` is row `n r` of `X` and the bias block's row is the bias vector, the
    tile's `xb · w + bias` at `(r, q)` is the whole `X · w + bias` at `(n r, q)`. -/
theorem affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    addf (matmul dB none (truncf .bf16 xb ht) (truncf .bf16 w ht) (constant ⟨2, ![R, M]⟩ .f32 0x00000000#32))
        (broadcastTo ⟨2, ![R, M]⟩ (shapeCast ⟨2, ![1, M]⟩ b2 hsc) hbc) (ix2 r q)
      = addf (Host.dotGeneral dW none X w) (broadcastInDim ⟨2, ![N, M]⟩ ![0, 1] h2 (broadcastInDim ⟨2, ![1, M]⟩ ![1] h1 b)) (ix2 (n r) q) := by
  rw [addf_apply, addf_apply, matmul_zero_apply hB, dotGeneral_apply hW, bias_rows_apply, broadcastTo_1b_ab_apply,
    shapeCast_self, hb]
  exact congrArg (· + b (ix1 q)) (Finset.sum_congr rfl fun k _ => by rw [hx])

/-- The same after the hyperbolic tangent, the kernel's and the host's being one function of an extended real. -/
theorem tanh_affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    tanh (addf (matmul dB none (truncf .bf16 xb ht) (truncf .bf16 w ht) (constant ⟨2, ![R, M]⟩ .f32 0x00000000#32))
        (broadcastTo ⟨2, ![R, M]⟩ (shapeCast ⟨2, ![1, M]⟩ b2 hsc) hbc)) (ix2 r q)
      = Host.tanh (addf (Host.dotGeneral dW none X w)
          (broadcastInDim ⟨2, ![N, M]⟩ ![0, 1] h2 (broadcastInDim ⟨2, ![1, M]⟩ ![1] h1 b))) (ix2 (n r) q) :=
  congrArg Ideal.tanh (affine_rows hB hW xb X w b2 b n hx hb ht hsc hbc h1 h2 r q)

end Cert.Lib

end
-- ==== Proof.LibDenseRows.lean ====
/-
  Dense layers read row by row at the ideal values, for a kernel that keeps each bias as a VECTOR block.

  A kernel tiles the rows of a matrix `X`. On a tile `xb` it forms `xb · w` with a matrix unit accumulating into zeros
  (the operands narrowed to bf16, or left in f32), adds the bias vector `[M]` after casting it to a row `[1, M]` and
  broadcasting the row over the tile, and may clamp the sum below at zero. The plain program forms `X · w` by one
  `dot_general`, adds the same vector broadcast over all rows, and clamps against a broadcast scalar zero. Over the
  extended reals narrowing is the identity, both products are the sum over the contracted index of the entrywise
  products, and the two zeros are the real number zero; so row `r` of the tile's result is row `n r` of the whole
  result as soon as row `r` of the tile is row `n r` of `X` (`relu_affine_rows`, `affine_rows_f32`). Nothing here
  depends on the sizes.

  `PlainDot.of_lists`: a record of dimension numbers whose lists are those of the plain product
  (contract the left operand's columns with the right operand's rows, no batch axis) reads its operands at
  `(r, k)` and `(k, c)`, whatever the three extents.
-/
import proofs.«130117_j33698313404514_1_alg».proof.Proof.LibAffineRows

noncomputable section

namespace Cert.Lib

open Idealize.ShloMosaic Idealize.ShloMosaic.ValueIdx

variable {R K M : ℕ}

/-- The lists `[1] [0] [0] [1] [] []` are the plain product of an `[R, K]` by a `[K, M]` matrix: the one contracted
    index has extent `K`; it is the left operand's column and the right operand's row; the result's row is the left
    operand's row and the result's column the right operand's column. Which branch each axis takes in the operand
    index depends only on the lists, never on `R`, `K`, `M`. -/
theorem PlainDot.of_lists (d : DotDims ⟨2, ![R, K]⟩ ⟨2, ![K, M]⟩ ⟨2, ![R, M]⟩)
    (hlc : d.lhsContracting = [1]) (hrc : d.rhsContracting = [0]) (hln : d.lhsNonContracting = [0])
    (hrn : d.rhsNonContracting = [1]) (hlb : d.lhsBatch = []) (hrb : d.rhsBatch = []) : PlainDot d where
  rank := by rw [d.rank_contr, hlc]; rfl
  size := by
    have hp : 0 < d.lhsContracting.length := by rw [hlc]; exact Nat.one_pos
    rw [d.size_contr 0 hp, List.getElem_of_eq hlc]
    rfl
  l0 := fun i q => by
    unfold DotDims.lhsIdx
    rw [dif_neg (by rw [hlb]; exact List.not_mem_nil), dif_pos (by rw [hln]; exact List.mem_singleton.mpr rfl)]
    simp only [Fin.val_cast]
    have key : ∀ (p p' : Nat) (hp : p < 2) (hp' : p' < 2), p = p' → (i ⟨p, hp⟩).val = (i ⟨p', hp'⟩).val :=
      fun p p' hp hp' h => by subst h; rfl
    exact key _ _ _ _ (by simp [hlb, hln])
  l1 := fun i q => d.lhsIdx_val_of_single hlc i q
  r0 := fun i q => d.rhsIdx_val_of_single hrc i q
  r1 := fun i q => by
    unfold DotDims.rhsIdx
    rw [dif_neg (by rw [hrb]; exact List.not_mem_nil), dif_pos (by rw [hrn]; exact List.mem_singleton.mpr rfl)]
    simp only [Fin.val_cast]
    have key : ∀ (p p' : Nat) (hp : p < 2) (hp' : p' < 2), p = p' → (i ⟨p, hp⟩).val = (i ⟨p', hp'⟩).val :=
      fun p p' hp hp' h => by subst h; rfl
    exact key _ _ _ _ (by simp [hlb, hln, hrn])

/-- A matrix unit's product of two f32 operands into zeros, at `(r, c)`: the sum over `k` of `x (r, k) · w (k, c)`. -/
theorem matmul_f32_zero_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (r : Fin R) (c : Fin M) :
    matmul d none x w (constant ⟨2, ![R, M]⟩ .f32 0x00000000#32) (ix2 r c) = ∑ k : Fin K, x (ix2 r k) * w (ix2 k c) := by
  simp only [matmul]
  rw [Ideal.matmul_constant_zero_apply]
  exact h.sum_eq (fun i => x i) (fun i => w i) r c

/-- A bias vector `[M]` cast to a row `[1, M]` and broadcast over `R` rows reads, at `(r, q)`, the vector at `q`. -/
theorem bias_block_apply (b : FVec Ideal ⟨1, ![M]⟩ .f32) (hsc : (⟨1, ![M]⟩ : Shape).ShapeCasts ⟨2, ![1, M]⟩)
    (hbc : (⟨2, ![1, M]⟩ : Shape).Broadcasts ⟨2, ![R, M]⟩) (r : Fin R) (q : Fin M) :
    broadcastTo ⟨2, ![R, M]⟩ (shapeCast ⟨2, ![1, M]⟩ b hsc) hbc (ix2 r q) = b (ix1 q) := by
  rw [broadcastTo_1b_ab_apply]
  refine (shapeCast_addUnit_apply ![M] b hsc (ix2 (0 : Fin 1) q)).trans ?_
  exact congrArg b (funext fun a => Fin.ext (by match a with | ⟨0, _⟩ => rfl))

/-- The kernel's zero, a scalar splat over the tile, is the real number zero at every index. -/
theorem zero_splat_apply {s : Shape} (i : s.Idx) :
    broadcast s (Scalar.ofBits (F := Ideal) .f32 0x00000000#32) i = (0 : EReal) := by
  rw [broadcast_apply]
  exact Ideal.ofBits_zero_f32

/-- The plain program's zero, a rank-0 constant broadcast to every index, is the real number zero there. -/
theorem zero_bcast_apply {t : Shape} (h0 : (⟨0, ![]⟩ : Shape).BroadcastsInDim t (![] : Fin 0 → Fin t.rank)) (j : t.Idx) :
    broadcastInDim t ![] h0 (constant (F := Ideal) ⟨0, ![]⟩ .f32 0x00000000#32) j = (0 : EReal) := by
  rw [broadcastInDim_apply _ h0 _ j (fun a => a.elim0) (fun a => a.elim0), constant_apply]
  exact Ideal.ofBits_zero_f32

/-- ROW BY ROW, clamped at zero: where row `r` of the tile `xb` is row `n r` of `X`, the tile's
    `max (xb · w + b) 0` at `(r, q)` is the whole `max (X · w + b) 0` at `(n r, q)`. -/
theorem relu_affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b : FVec Ideal ⟨1, ![M]⟩ .f32) (n : Fin R → Fin N) (hx : ∀ r k, xb (ix2 r k) = X (ix2 (n r) k))
    (ht : FTy.bits .bf16 < FTy.bits .f32) (hsc : (⟨1, ![M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2))
    (h0 : (⟨0, ![]⟩ : Shape).BroadcastsInDim ⟨2, ![N, M]⟩ (![] : Fin 0 → Fin 2)) (r : Fin R) (q : Fin M) :
    maximumf (addf (matmul dB none (truncf .bf16 xb ht) (truncf .bf16 w ht) (constant ⟨2, ![R, M]⟩ .f32 0x00000000#32))
        (broadcastTo ⟨2, ![R, M]⟩ (shapeCast ⟨2, ![1, M]⟩ b hsc) hbc))
        (broadcast ⟨2, ![R, M]⟩ (Scalar.ofBits .f32 0x00000000#32)) (ix2 r q)
      = maximumf (addf (Host.dotGeneral dW none X w)
          (broadcastInDim ⟨2, ![N, M]⟩ ![0, 1] h2 (broadcastInDim ⟨2, ![1, M]⟩ ![1] h1 b)))
          (broadcastInDim ⟨2, ![N, M]⟩ ![] h0 (constant ⟨0, ![]⟩ .f32 0x00000000#32)) (ix2 (n r) q) := by
  rw [maximumf_apply, maximumf_apply, addf_apply, addf_apply, matmul_zero_apply hB, dotGeneral_apply hW,
    bias_rows_apply, bias_block_apply, zero_splat_apply, zero_bcast_apply]
  exact congrArg (fun s => max (s + b (ix1 q)) 0) (Finset.sum_congr rfl fun k _ => by rw [hx])

/-- ROW BY ROW, f32 operands and no clamp: the tile's `xb · w + b` at `(r, q)` is the whole `X · w + b` at `(n r, q)`. -/
theorem affine_rows_f32 {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b : FVec Ideal ⟨1, ![M]⟩ .f32) (n : Fin R → Fin N) (hx : ∀ r k, xb (ix2 r k) = X (ix2 (n r) k))
    (hsc : (⟨1, ![M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    addf (matmul dB none xb w (constant ⟨2, ![R, M]⟩ .f32 0x00000000#32))
        (broadcastTo ⟨2, ![R, M]⟩ (shapeCast ⟨2, ![1, M]⟩ b hsc) hbc) (ix2 r q)
      = addf (Host.dotGeneral dW none X w)
          (broadcastInDim ⟨2, ![N, M]⟩ ![0, 1] h2 (broadcastInDim ⟨2, ![1, M]⟩ ![1] h1 b)) (ix2 (n r) q) := by
  rw [addf_apply, addf_apply, matmul_f32_zero_apply hB, dotGeneral_apply hW, bias_rows_apply, bias_block_apply]
  exact congrArg (· + b (ix1 q)) (Finset.sum_congr rfl fun k _ => by rw [hx])

end Cert.Lib

end
-- ==== Proof.Rows.lean ====
/-
  The four dense layers of one tile against the plain program's, row by row, at the ideal values.

  A tile holds 2048 consecutive rows of the state matrix; the weights and biases are whole. Each of the first three
  layers is `max (h · W + b) 0` with the product taken by a matrix unit over bf16-narrowed operands into zeros, the
  fourth is `h · W + b` in f32. The plain program computes the same four layers on all 65536 rows with `dot_general`.
  Every layer acts on each row by itself, so if row `r` of the tile's input is row `n r` of the whole input, the same
  holds after each layer (`tile_h1_rows` … `tile_v_rows`): the tile's pre-activation `v` at `(r, q)` is the plain
  program's at `(n r, q)`.
-/
import proofs.«130117_j33698313404514_1_alg».proof.Proof.Gen.KernelIdeal.Skeleton
import proofs.«130117_j33698313404514_1_alg».proof.Proof.Gen.ReferenceIdeal.Read
import proofs.«130117_j33698313404514_1_alg».proof.Proof.LibDenseRows

noncomputable section

namespace Cert.Bridge

open Idealize.ShloMosaic Idealize.ShloMosaic.ValueIdx Cert.Lib Cert.KernelIdeal Cert.KernelIdeal.Gen

/-! ## The eight products are plain products -/

theorem tile_dot1 : PlainDot dot_S2048x512_S512x500_S2048x500_1_0_0_1_n_n := PlainDot.of_lists _ rfl rfl rfl rfl rfl rfl
theorem tile_dot2 : PlainDot dot_S2048x500_S500x300_S2048x300_1_0_0_1_n_n := PlainDot.of_lists _ rfl rfl rfl rfl rfl rfl
theorem tile_dot3 : PlainDot dot_S2048x300_S300x100_S2048x100_1_0_0_1_n_n := PlainDot.of_lists _ rfl rfl rfl rfl rfl rfl
theorem tile_dot4 : PlainDot dot_S2048x100_S100x64_S2048x64_1_0_0_1_n_n := PlainDot.of_lists _ rfl rfl rfl rfl rfl rfl
theorem whole_dot1 : PlainDot Cert.ReferenceIdeal.dot_S65536x512_S512x500_S65536x500_1_0_0_1_n_n := PlainDot.of_lists _ rfl rfl rfl rfl rfl rfl
theorem whole_dot2 : PlainDot Cert.ReferenceIdeal.dot_S65536x500_S500x300_S65536x300_1_0_0_1_n_n := PlainDot.of_lists _ rfl rfl rfl rfl rfl rfl
theorem whole_dot3 : PlainDot Cert.ReferenceIdeal.dot_S65536x300_S300x100_S65536x100_1_0_0_1_n_n := PlainDot.of_lists _ rfl rfl rfl rfl rfl rfl
theorem whole_dot4 : PlainDot Cert.ReferenceIdeal.dot_S65536x100_S100x64_S65536x64_1_0_0_1_n_n := PlainDot.of_lists _ rfl rfl rfl rfl rfl rfl

/-! ## The tile's layers, named -/

/-- Layer 1 on a tile: `max (xb · w1 + b1) 0`, 2048 x 500. -/
def tile_h1 (xb : FVec Ideal S2048x512 .f32) (w1 : FVec Ideal S512x500 .f32) (b1 : FVec Ideal S500 .f32) : FVec Ideal S2048x500 .f32 :=
  maximumf (addf (matmul dot_S2048x512_S512x500_S2048x500_1_0_0_1_n_n none (truncf .bf16 xb bitsLt_bf16_f32) (truncf .bf16 w1 bitsLt_bf16_f32) (constant S2048x500 .f32 0x00000000#32))
    (broadcastTo S2048x500 (shapeCast S1x500 b1 shapeCasts_S500_S1x500) broadcasts_S1x500_S2048x500)) (broadcast S2048x500 (Scalar.ofBits .f32 0x00000000#32))

/-- Layer 2 on a tile: `max (h1 · w2 + b2) 0`, 2048 x 300. -/
def tile_h2 (h1 : FVec Ideal S2048x500 .f32) (w2 : FVec Ideal S500x300 .f32) (b2 : FVec Ideal S300 .f32) : FVec Ideal S2048x300 .f32 :=
  maximumf (addf (matmul dot_S2048x500_S500x300_S2048x300_1_0_0_1_n_n none (truncf .bf16 h1 bitsLt_bf16_f32) (truncf .bf16 w2 bitsLt_bf16_f32) (constant S2048x300 .f32 0x00000000#32))
    (broadcastTo S2048x300 (shapeCast S1x300 b2 shapeCasts_S300_S1x300) broadcasts_S1x300_S2048x300)) (broadcast S2048x300 (Scalar.ofBits .f32 0x00000000#32))

/-- Layer 3 on a tile: `max (h2 · w3 + b3) 0`, 2048 x 100. -/
def tile_h3 (h2 : FVec Ideal S2048x300 .f32) (w3 : FVec Ideal S300x100 .f32) (b3 : FVec Ideal S100 .f32) : FVec Ideal S2048x100 .f32 :=
  maximumf (addf (matmul dot_S2048x300_S300x100_S2048x100_1_0_0_1_n_n none (truncf .bf16 h2 bitsLt_bf16_f32) (truncf .bf16 w3 bitsLt_bf16_f32) (constant S2048x100 .f32 0x00000000#32))
    (broadcastTo S2048x100 (shapeCast S1x100 b3 shapeCasts_S100_S1x100) broadcasts_S1x100_S2048x100)) (broadcast S2048x100 (Scalar.ofBits .f32 0x00000000#32))

/-- Layer 4 on a tile, in f32 and not clamped: `h3 · w4 + b4`, 2048 x 64. -/
def tile_v (h3 : FVec Ideal S2048x100 .f32) (w4 : FVec Ideal S100x64 .f32) (b4 : FVec Ideal S64 .f32) : FVec Ideal S2048x64 .f32 :=
  addf (matmul dot_S2048x100_S100x64_S2048x64_1_0_0_1_n_n none h3 w4 (constant S2048x64 .f32 0x00000000#32))
    (broadcastTo S2048x64 (shapeCast S1x64 b4 shapeCasts_S64_S1x64) broadcasts_S1x64_S2048x64)

/-- The body's pre-activation is the four layers composed. -/
theorem k0_pay2_eq (xb : FVec Ideal S2048x512 .f32) (w1 : FVec Ideal S512x500 .f32) (b1 : FVec Ideal S500 .f32)
    (w2 : FVec Ideal S500x300 .f32) (b2 : FVec Ideal S300 .f32) (w3 : FVec Ideal S300x100 .f32) (b3 : FVec Ideal S100 .f32)
    (w4 : FVec Ideal S100x64 .f32) (b4 : FVec Ideal S64 .f32) :
    k0_pay2 (F := Ideal) xb w1 b1 w2 b2 w3 b3 w4 b4 = tile_v (tile_h3 (tile_h2 (tile_h1 xb w1 b1) w2 b2) w3 b3) w4 b4 := rfl

/-! ## Row by row -/

section Rows
variable (xb : FVec Ideal S2048x512 .f32) (x0 : FVec Ideal Cert.ReferenceIdeal.S65536x512 .f32) (x1 : FVec Ideal Cert.ReferenceIdeal.S512x500 .f32) (x2 : FVec Ideal Cert.ReferenceIdeal.S500 .f32) (x3 : FVec Ideal Cert.ReferenceIdeal.S500x300 .f32) (x4 : FVec Ideal Cert.ReferenceIdeal.S300 .f32) (x5 : FVec Ideal Cert.ReferenceIdeal.S300x100 .f32) (x6 : FVec Ideal Cert.ReferenceIdeal.S100 .f32) (x7 : FVec Ideal Cert.ReferenceIdeal.S100x64 .f32) (x8 : FVec Ideal Cert.ReferenceIdeal.S64 .f32) (n : Fin 2048 → Fin 65536)
  (hx : ∀ (r : Fin 2048) (k : Fin 512), xb (ix2 r k) = x0 (ix2 (n r) k))
include hx

/-- After layer 1, row `r` of the tile is row `n r` of the whole. -/
theorem tile_h1_rows (r : Fin 2048) (q : Fin 500) :
    tile_h1 xb x1 x2 (ix2 r q) = Cert.ReferenceIdeal.Read.val_main_v4 (F := Ideal) x0 x1 x2 (ix2 (n r) q) := by
  unfold tile_h1 Cert.ReferenceIdeal.Read.val_main_v4 Cert.ReferenceIdeal.Read.val_main_v3 Cert.ReferenceIdeal.Read.val_main_v0 Cert.ReferenceIdeal.Read.val_main_v2 Cert.ReferenceIdeal.Read.val_main_v1 Cert.ReferenceIdeal.Read.val_main_call0_v0 Cert.ReferenceIdeal.Read.val_main_call0_cst
  exact relu_affine_rows tile_dot1 whole_dot1 xb x0 x1 x2 n hx bitsLt_bf16_f32 shapeCasts_S500_S1x500 broadcasts_S1x500_S2048x500
    Cert.ReferenceIdeal.Gen.bcast_S500_S1x500_1 Cert.ReferenceIdeal.Gen.bcast_S1x500_S65536x500_0_1 Cert.ReferenceIdeal.Gen.bcast_S_S65536x500 r q

/-- After layer 2. -/
theorem tile_h2_rows (r : Fin 2048) (q : Fin 300) :
    tile_h2 (tile_h1 xb x1 x2) x3 x4 (ix2 r q) = Cert.ReferenceIdeal.Read.val_main_v9 (F := Ideal) x0 x1 x2 x3 x4 (ix2 (n r) q) := by
  unfold tile_h2 Cert.ReferenceIdeal.Read.val_main_v9 Cert.ReferenceIdeal.Read.val_main_v8 Cert.ReferenceIdeal.Read.val_main_v5 Cert.ReferenceIdeal.Read.val_main_v7 Cert.ReferenceIdeal.Read.val_main_v6 Cert.ReferenceIdeal.Read.val_main_call1_v0 Cert.ReferenceIdeal.Read.val_main_call1_cst
  exact relu_affine_rows tile_dot2 whole_dot2 (tile_h1 xb x1 x2) (Cert.ReferenceIdeal.Read.val_main_v4 (F := Ideal) x0 x1 x2) x3 x4 n
    (fun r k => tile_h1_rows xb x0 x1 x2 n hx r k) bitsLt_bf16_f32 shapeCasts_S300_S1x300 broadcasts_S1x300_S2048x300
    Cert.ReferenceIdeal.Gen.bcast_S300_S1x300_1 Cert.ReferenceIdeal.Gen.bcast_S1x300_S65536x300_0_1 Cert.ReferenceIdeal.Gen.bcast_S_S65536x300 r q

/-- After layer 3. -/
theorem tile_h3_rows (r : Fin 2048) (q : Fin 100) :
    tile_h3 (tile_h2 (tile_h1 xb x1 x2) x3 x4) x5 x6 (ix2 r q) = Cert.ReferenceIdeal.Read.val_main_v14 (F := Ideal) x0 x1 x2 x3 x4 x5 x6 (ix2 (n r) q) := by
  unfold tile_h3 Cert.ReferenceIdeal.Read.val_main_v14 Cert.ReferenceIdeal.Read.val_main_v13 Cert.ReferenceIdeal.Read.val_main_v10 Cert.ReferenceIdeal.Read.val_main_v12 Cert.ReferenceIdeal.Read.val_main_v11 Cert.ReferenceIdeal.Read.val_main_call2_v0 Cert.ReferenceIdeal.Read.val_main_call2_cst
  exact relu_affine_rows tile_dot3 whole_dot3 (tile_h2 (tile_h1 xb x1 x2) x3 x4) (Cert.ReferenceIdeal.Read.val_main_v9 (F := Ideal) x0 x1 x2 x3 x4) x5 x6 n
    (fun r k => tile_h2_rows xb x0 x1 x2 x3 x4 n hx r k) bitsLt_bf16_f32 shapeCasts_S100_S1x100 broadcasts_S1x100_S2048x100
    Cert.ReferenceIdeal.Gen.bcast_S100_S1x100_1 Cert.ReferenceIdeal.Gen.bcast_S1x100_S65536x100_0_1 Cert.ReferenceIdeal.Gen.bcast_S_S65536x100 r q

/-- The tile's pre-activation `v`, as the body computes it, at `(r, q)` is the plain program's at `(n r, q)`. -/
theorem tile_v_rows (r : Fin 2048) (q : Fin 64) :
    k0_pay2 (F := Ideal) xb x1 x2 x3 x4 x5 x6 x7 x8 (ix2 r q) = Cert.ReferenceIdeal.Read.val_main_v18 (F := Ideal) x0 x1 x2 x3 x4 x5 x6 x7 x8 (ix2 (n r) q) := by
  rw [k0_pay2_eq]
  unfold tile_v Cert.ReferenceIdeal.Read.val_main_v18 Cert.ReferenceIdeal.Read.val_main_v15 Cert.ReferenceIdeal.Read.val_main_v17 Cert.ReferenceIdeal.Read.val_main_v16
  exact affine_rows_f32 tile_dot4 whole_dot4 (tile_h3 (tile_h2 (tile_h1 xb x1 x2) x3 x4) x5 x6) (Cert.ReferenceIdeal.Read.val_main_v14 (F := Ideal) x0 x1 x2 x3 x4 x5 x6) x7 x8 n
    (fun r k => tile_h3_rows xb x0 x1 x2 x3 x4 x5 x6 n hx r k) shapeCasts_S64_S1x64 broadcasts_S1x64_S2048x64
    Cert.ReferenceIdeal.Gen.bcast_S64_S1x64_1 Cert.ReferenceIdeal.Gen.bcast_S1x64_S65536x64_0_1 r q

end Rows

end Cert.Bridge

end
-- ==== Proof.Epilogue.lean ====
import proofs.«130117_j33698313404514_1_alg».proof.Proof.Gen.KernelIdeal.Skeleton
import proofs.«130117_j33698313404514_1_alg».proof.Proof.Gen.ReferenceIdeal.Read
import Idealize.ShloMosaic.Lib.ValueIdx
import Idealize.ShloMosaic.Lib.ValueLayout
import Idealize.ShloMosaic.Lib.Pipeline.Value
import Idealize.ShloMosaic.PureOps.Ideal.Laws

noncomputable section

namespace Cert.Bridge

open Idealize.ShloMosaic Idealize.ShloMosaic.ValueIdx Cert.KernelIdeal Cert.KernelIdeal.Gen

/-! ## The tile's intermediate values, one definition per line of the kernel's epilogue -/

/-- The hyperbolic tangent of the tile's first 63 columns. -/
def tileTanh (vb : FVec Ideal S2048x64 .f32) : FVec Ideal S2048x63 .f32 :=
  tanh (extractStridedSlice S2048x63 ![0, 0] vb slices_S2048x64_o0_0_S2048x63)

/-- The logistic of the tile's last column. -/
def tileGate (vb : FVec Ideal S2048x64 .f32) : FVec Ideal S2048x1 .f32 :=
  logistic (extractStridedSlice S2048x1 ![0, 63] vb slices_S2048x64_o0_63_S2048x1)

/-- Where the tangent is positive. -/
def tilePos (vb : FVec Ideal S2048x64 .f32) : IVec S2048x63 1 :=
  cmpf .ogt (tileTanh vb) (broadcast S2048x63 (Scalar.ofBits .f32 0x00000000#32))

/-- The tangent where it is positive, zero elsewhere. -/
def tileMasked (vb : FVec Ideal S2048x64 .f32) : FVec Ideal S2048x63 .f32 :=
  select (tilePos vb) (tileTanh vb) (broadcast S2048x63 (Scalar.ofBits .f32 0x00000000#32))

/-- Each row's sum of its positive tangents. -/
def tileRowSum (vb : FVec Ideal S2048x64 .f32) : FVec Ideal S2048 .f32 :=
  multiReduction .add [1] S2048 (tileMasked vb) 0x00000000#32 reduces_S2048x63_S2048 (.inl rfl) rfl

/-- The row sums as a column. -/
def tileRowSumCol (vb : FVec Ideal S2048x64 .f32) : FVec Ideal S2048x1 .f32 :=
  shapeCast S2048x1 (tileRowSum vb) shapeCasts_S2048_S2048x1

/-- The divisor of each row: its sum of positive tangents, or one where that sum is zero. -/
def tileDenom (vb : FVec Ideal S2048x64 .f32) : FVec Ideal S2048x1 .f32 :=
  select (cmpf .oeq (tileRowSumCol vb) (broadcast S2048x1 (Scalar.ofBits .f32 0x00000000#32)))
    (broadcast S2048x1 (Scalar.ofBits .f32 0x3F800000#32)) (tileRowSumCol vb)

/-- The tangent, divided by its row's divisor where it is positive. -/
def tileScaled (vb : FVec Ideal S2048x64 .f32) : FVec Ideal S2048x63 .f32 :=
  select (tilePos vb)
    (divf (tileTanh vb) (broadcastTo S2048x63 (tileDenom vb) broadcasts_S2048x1_S2048x63)) (tileTanh vb)

/-- The kernel's epilogue joins the scaled tangents and the gate column. -/
theorem k0_pay1_eq_join (vb : FVec Ideal S2048x64 .f32) :
    k0_pay1 (F := Ideal) vb (extractStridedSlice S2048x63 ![0, 0] vb slices_S2048x64_o0_0_S2048x63)
      = concatenate S2048x64 1 [⟨S2048x63, tileScaled vb⟩, ⟨S2048x1, tileGate vb⟩]
          concatenates_S2048x63_S2048x1_S2048x64_d1 := rfl

/-! ## Where the whole program's layout operations read, at explicit coordinates -/

open Cert.ReferenceIdeal.Read in
/-- The whole slice of the first 63 columns reads column `j` at column `j`. -/
theorem idx_main_v19_ix2 (m : Fin 65536) (j : Fin 63) :
    idx_main_v19 (ix2 m j) = ix2 m (⟨j.val, by have := j.isLt; omega⟩ : Fin 64) := by
  funext a; match a with | ⟨0, _⟩ => rfl | ⟨1, _⟩ => rfl

open Cert.ReferenceIdeal.Read in
/-- The whole slice of the last column reads column 63. -/
theorem idx_main_v21_ix2 (m : Fin 65536) (c : Fin 1) :
    idx_main_v21 (ix2 m c) = ix2 m (⟨63 + c.val, by have := c.isLt; omega⟩ : Fin 64) := by
  funext a; match a with | ⟨0, _⟩ => rfl | ⟨1, _⟩ => rfl

open Cert.ReferenceIdeal.Read in
/-- The whole row sum's `k`-th term sits at `(m, k)`. -/
theorem idx_main_v31_ix1 (m : Fin 65536) (k : Fin 63) : idx_main_v31 (ix1 m) k = ix2 m k := by
  funext a; match a with | ⟨0, _⟩ => rfl | ⟨1, _⟩ => rfl

open Cert.ReferenceIdeal.Read in
/-- The whole row sums as a column read row `m` at `m`. -/
theorem idx_main_v32_ix2 (m : Fin 65536) (c : Fin 1) : idx_main_v32 (ix2 m c) = ix1 m := by
  funext a; match a with | ⟨0, _⟩ => rfl

open Cert.ReferenceIdeal.Read in
/-- The whole divisor spread over 63 columns reads the column's one entry. -/
theorem idx_main_v36_ix2 (m : Fin 65536) (j : Fin 63) : idx_main_v36 (ix2 m j) = ix2 m (0 : Fin 1) := by
  funext a; match a with | ⟨0, _⟩ => rfl | ⟨1, _⟩ => rfl

/-- The tile's row sum's `k`-th term sits at `(r, k)`. -/
theorem lift_row_ix1 (r : Fin 2048) (k : Fin 63) :
    reduces_S2048x63_S2048.lift (ix1 r) k = ix2 r k := by
  funext a; match a with | ⟨0, _⟩ => rfl | ⟨1, _⟩ => rfl

/-- The word `0x3F800000` is the number one. -/
theorem ofBits_one_f32 : Ideal.ofBits .f32 0x3F800000#32 = 1 := by
  simp [Ideal.ofBits, Ideal.ieee, -EReal.coe_mul]; norm_num

section Rows

open Cert.ReferenceIdeal.Read

variable {vb : FVec Ideal S2048x64 .f32} {x0 : FVec Ideal Cert.ReferenceIdeal.S65536x512 .f32} {x1 : FVec Ideal Cert.ReferenceIdeal.S512x500 .f32} {x2 : FVec Ideal Cert.ReferenceIdeal.S500 .f32} {x3 : FVec Ideal Cert.ReferenceIdeal.S500x300 .f32} {x4 : FVec Ideal Cert.ReferenceIdeal.S300 .f32} {x5 : FVec Ideal Cert.ReferenceIdeal.S300x100 .f32} {x6 : FVec Ideal Cert.ReferenceIdeal.S100 .f32} {x7 : FVec Ideal Cert.ReferenceIdeal.S100x64 .f32} {x8 : FVec Ideal Cert.ReferenceIdeal.S64 .f32}
    {n : Fin 2048 → Fin 65536}
    (hv : ∀ (r : Fin 2048) (q : Fin 64),
      vb (ix2 r q) = val_main_v18 (F := Ideal) x0 x1 x2 x3 x4 x5 x6 x7 x8 (ix2 (n r) q))

include hv

/-- Row `r` of the tile's tangent is row `n r` of the whole tangent. -/
theorem tileTanh_row (r : Fin 2048) (j : Fin 63) :
    tileTanh vb (ix2 r j) = val_main_v20 (F := Ideal) x0 x1 x2 x3 x4 x5 x6 x7 x8 (ix2 (n r) j) := by
  rw [val_main_v20_apply, val_main_v19_apply, idx_main_v19_ix2]
  show FloatOps.tanh (extractStridedSlice S2048x63 ![0, 0] vb slices_S2048x64_o0_0_S2048x63 (ix2 r j)) = _
  rw [slice2_axis1_apply 0 vb slices_S2048x64_o0_0_S2048x63 r j ⟨j.val, by have := j.isLt; omega⟩ (by simp), hv]
  rfl

/-- Row `r` of the tile's positivity mask is row `n r` of the whole mask. -/
theorem tilePos_row (r : Fin 2048) (j : Fin 63) :
    tilePos vb (ix2 r j) = val_main_v29 (F := Ideal) x0 x1 x2 x3 x4 x5 x6 x7 x8 (ix2 (n r) j) := by
  rw [val_main_v29_apply, val_main_v28_apply, val_main_cst_1_apply, ← tileTanh_row hv r j]
  rfl

/-- Row `r` of the tile's masked tangent is row `n r` of the whole masked tangent. -/
theorem tileMasked_row (r : Fin 2048) (j : Fin 63) :
    tileMasked vb (ix2 r j) = val_main_v30 (F := Ideal) x0 x1 x2 x3 x4 x5 x6 x7 x8 (ix2 (n r) j) := by
  rw [val_main_v30_apply, val_main_call3_v1_apply, val_main_call3_v0_apply, val_main_cst_2_apply,
    ← tilePos_row hv r j, ← tileTanh_row hv r j]
  rfl

/-- The tile's row sum at `r` is the whole row sum at `n r`: the same 63 terms, the whole one started from zero. -/
theorem tileRowSum_row (r : Fin 2048) :
    tileRowSum vb (ix1 r) = val_main_v31 (F := Ideal) x0 x1 x2 x3 x4 x5 x6 x7 x8 (ix1 (n r)) := by
  rw [val_main_v31_apply, val_main_cst_3_apply]
  refine (Ideal.multiReduction_add_single (tileMasked vb) 0x00000000#32 reduces_S2048x63_S2048 (.inl rfl) rfl (ix1 r)).trans ?_
  show _ = Ideal.ofBits .f32 0x00000000#32 + _
  rw [Ideal.ofBits_zero_f32, zero_add]
  refine Finset.sum_congr rfl fun (k : Fin 63) _ => ?_
  rw [idx_main_v31_ix1, ← tileMasked_row hv r k]
  exact congrArg (tileMasked vb) (lift_row_ix1 r k)

/-- The tile's row sums as a column, at row `r`, are the whole ones at row `n r`. -/
theorem tileRowSumCol_row (r : Fin 2048) (c : Fin 1) :
    tileRowSumCol vb (ix2 r c) = val_main_v32 (F := Ideal) x0 x1 x2 x3 x4 x5 x6 x7 x8 (ix2 (n r) c) := by
  rw [val_main_v32_apply, idx_main_v32_ix2, ← tileRowSum_row hv r]
  refine shapeCast_apply (tileRowSum vb) shapeCasts_S2048_S2048x1 (ix2 r c) (ix1 r) ?_
  rw [Shape.rowMajor_val_two, Shape.rowMajor_val_one]
  show r.val = r.val * 1 + c.val
  have := c.isLt; omega

/-- The tile's divisor at row `r` is the whole divisor at row `n r`. -/
theorem tileDenom_row (r : Fin 2048) (c : Fin 1) :
    tileDenom vb (ix2 r c) = val_main_v35 (F := Ideal) x0 x1 x2 x3 x4 x5 x6 x7 x8 (ix2 (n r) c) := by
  rw [val_main_v35_apply, val_main_v34_apply, val_main_v33_apply, val_main_cst_4_apply, val_main_call4_v1_apply,
    val_main_call4_v0_apply, val_main_cst_5_apply, ← tileRowSumCol_row hv r c]
  rfl

/-- Row `r` of the tile's scaled tangent is row `n r` of the whole scaled tangent. -/
theorem tileScaled_row (r : Fin 2048) (j : Fin 63) :
    tileScaled vb (ix2 r j) = val_main_v38 (F := Ideal) x0 x1 x2 x3 x4 x5 x6 x7 x8 (ix2 (n r) j) := by
  rw [val_main_v38_apply, val_main_v37_apply, val_main_v36_apply, idx_main_v36_ix2,
    ← tilePos_row hv r j, ← tileTanh_row hv r j, ← tileDenom_row hv r 0]
  have hb : broadcastTo S2048x63 (tileDenom vb) broadcasts_S2048x1_S2048x63 (ix2 r j) = tileDenom vb (ix2 r (0 : Fin 1)) :=
    broadcastTo_apply (tileDenom vb) broadcasts_S2048x1_S2048x63 (ix2 r j) (ix2 r (0 : Fin 1)) (fun a => by
      match a with
      | ⟨0, _⟩ => show r.val = if (2048 : Nat) = 1 then 0 else r.val; rw [if_neg (by decide)]
      | ⟨1, _⟩ => show 0 = if (1 : Nat) = 1 then 0 else j.val; rw [if_pos rfl])
  show Scalar.select (tilePos vb (ix2 r j))
      (Ideal.div (tileTanh vb (ix2 r j)) (broadcastTo S2048x63 (tileDenom vb) broadcasts_S2048x1_S2048x63 (ix2 r j)))
      (tileTanh vb (ix2 r j)) = _
  rw [hb]
  rfl

/-- Row `r` of the tile's gate column is row `n r` of the whole gate column: the logistic is one over one plus the
    exponential of the negation, and the word the whole program writes for one is one. -/
theorem tileGate_row (r : Fin 2048) (c : Fin 1) :
    tileGate vb (ix2 r c) = val_main_v27 (F := Ideal) x0 x1 x2 x3 x4 x5 x6 x7 x8 (ix2 (n r) c) := by
  rw [val_main_v27_apply, val_main_v26_apply, val_main_cst_0_apply, val_main_v25_apply, val_main_v24_apply,
    val_main_cst_apply, val_main_v23_apply, val_main_v22_apply, val_main_v21_apply, idx_main_v21_ix2]
  show FloatOps.logistic (extractStridedSlice S2048x1 ![0, 63] vb slices_S2048x64_o0_63_S2048x1 (ix2 r c)) = _
  rw [slice2_axis1_apply 63 vb slices_S2048x64_o0_63_S2048x1 r c ⟨63 + c.val, by have := c.isLt; omega⟩ rfl, hv]
  simp only [Ideal.ofBits_def, ofBits_one_f32]
  rfl

end Rows

/-- THE EPILOGUE, ROW BY ROW: if row `r` of the tile's input is row `n r` of the whole input, row `r` of the tile's
    result is row `n r` of the whole result: a column below 63 from the scaled tangent, column 63 from the gate. -/
theorem gate_rows (vb : FVec Ideal S2048x64 .f32) (x0 : FVec Ideal Cert.ReferenceIdeal.S65536x512 .f32) (x1 : FVec Ideal Cert.ReferenceIdeal.S512x500 .f32) (x2 : FVec Ideal Cert.ReferenceIdeal.S500 .f32) (x3 : FVec Ideal Cert.ReferenceIdeal.S500x300 .f32) (x4 : FVec Ideal Cert.ReferenceIdeal.S300 .f32) (x5 : FVec Ideal Cert.ReferenceIdeal.S300x100 .f32) (x6 : FVec Ideal Cert.ReferenceIdeal.S100 .f32) (x7 : FVec Ideal Cert.ReferenceIdeal.S100x64 .f32) (x8 : FVec Ideal Cert.ReferenceIdeal.S64 .f32)
    (n : Fin 2048 → Fin 65536)
    (hv : ∀ (r : Fin 2048) (q : Fin 64),
      vb (ix2 r q) = Cert.ReferenceIdeal.Read.val_main_v18 (F := Ideal) x0 x1 x2 x3 x4 x5 x6 x7 x8 (ix2 (n r) q))
    (r : Fin 2048) (q : Fin 64) :
    k0_pay1 (F := Ideal) vb (extractStridedSlice S2048x63 ![0, 0] vb slices_S2048x64_o0_0_S2048x63) (ix2 r q)
      = Cert.ReferenceIdeal.Read.val_main_v39 (F := Ideal) x0 x1 x2 x3 x4 x5 x6 x7 x8 (ix2 (n r) q) := by
  rw [k0_pay1_eq_join]
  unfold Cert.ReferenceIdeal.Read.val_main_v39
  by_cases hq : q.val < 63
  · -- a column of the scaled tangent, on both sides
    have hK := concatenate_pair_apply_left (t := S2048x64) 1 (tileScaled vb) (tileGate vb)
      concatenates_S2048x63_S2048x1_S2048x64_d1 (ix2 r q) rfl (ix2 r (⟨q.val, hq⟩ : Fin 63))
      (fun b => by match b with | ⟨0, _⟩ => rfl | ⟨1, _⟩ => rfl)
    have hW := concatenate_pair_apply_left (t := Cert.ReferenceIdeal.S65536x64) 1
      (Cert.ReferenceIdeal.Read.val_main_v38 (F := Ideal) x0 x1 x2 x3 x4 x5 x6 x7 x8)
      (Cert.ReferenceIdeal.Read.val_main_v27 (F := Ideal) x0 x1 x2 x3 x4 x5 x6 x7 x8)
      Cert.ReferenceIdeal.Gen.concatenates_S65536x63_S65536x1_S65536x64_d1 (ix2 (n r) q) rfl
      (ix2 (n r) (⟨q.val, hq⟩ : Fin 63)) (fun b => by match b with | ⟨0, _⟩ => rfl | ⟨1, _⟩ => rfl)
    exact hK.trans ((tileScaled_row hv r ⟨q.val, hq⟩).trans hW.symm)
  · -- the gate column, on both sides
    have h63 : q.val = 63 := by have := q.isLt; omega
    have hK := concatenate_pair_apply_right (t := S2048x64) 1 (tileScaled vb) (tileGate vb)
      concatenates_S2048x63_S2048x1_S2048x64_d1 (ix2 r q) rfl rfl (ix2 r (0 : Fin 1))
      (fun b hb => by match b with | ⟨0, _⟩ => rfl | ⟨1, _⟩ => exact absurd (Fin.ext rfl) hb)
      (by show 0 + 63 = q.val; omega)
    have hW := concatenate_pair_apply_right (t := Cert.ReferenceIdeal.S65536x64) 1
      (Cert.ReferenceIdeal.Read.val_main_v38 (F := Ideal) x0 x1 x2 x3 x4 x5 x6 x7 x8)
      (Cert.ReferenceIdeal.Read.val_main_v27 (F := Ideal) x0 x1 x2 x3 x4 x5 x6 x7 x8)
      Cert.ReferenceIdeal.Gen.concatenates_S65536x63_S65536x1_S65536x64_d1 (ix2 (n r) q) rfl rfl
      (ix2 (n r) (0 : Fin 1))
      (fun b hb => by match b with | ⟨0, _⟩ => rfl | ⟨1, _⟩ => exact absurd (Fin.ext rfl) hb)
      (by show 0 + 63 = q.val; omega)
    exact hK.trans ((tileGate_row hv r 0).trans hW.symm)

end Cert.Bridge

end
-- ==== Proof.KernelValue.lean ====
/-
  What the kernel's run leaves in the result array: the plain program's result of the launched arguments.

  The grid has 32 points; point `t` stages rows `2048·t … 2048·t + 2047` of the state matrix and the whole of every
  weight and bias, and writes back rows `2048·t … 2048·t + 2047` of the result. The body's value on a tile is, row by
  row, the plain program's value on the corresponding rows (the four layers, then the gate and normalisation of each
  row), so what point `t` writes back is block `t` of ONE array, the plain program's result `wholeResult`; the 32
  blocks tile the 65536 rows, hence after the run the result array is `wholeResult`.
-/
import proofs.«130117_j33698313404514_1_alg».proof.Proof.Gen.KernelIdeal.Value
import proofs.«130117_j33698313404514_1_alg».proof.Proof.Rows
import proofs.«130117_j33698313404514_1_alg».proof.Proof.Epilogue

noncomputable section

namespace Cert.Bridge

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The plain program's result as a function of the arrays the kernel is launched on. -/
abbrev wholeResult (c : Dev nD) : S65536x64.Idx → Elt Ideal .f32 :=
  Cert.ReferenceIdeal.Read.val_main_v39 (F := Ideal) (V m c main_arg0) (V m c main_arg1) (V m c main_arg2) (V m c main_arg3) (V m c main_arg4) (V m c main_arg5) (V m c main_arg6) (V m c main_arg7) (V m c main_arg8)

theorem zeros2 : (![0, 0] : Fin 2 → Nat) = fun _ => 0 := funext fun a => by fin_cases a <;> rfl
theorem zeros1 : (![0] : Fin 1 → Nat) = fun _ => 0 := funext fun a => by fin_cases a; rfl

/-- The global row of row `r` of tile `t`. -/
def tileRow (t : Fin cfg0.N) (r : Fin 2048) : Fin 65536 :=
  ⟨t.val * 2048 + r.val, by have h := t.isLt; have hN : cfg0.N = 32 := N_0; have := r.isLt; omega⟩

/-- The printed index maps, decided over the 32 points: the state and result windows move with the point along the rows
    and sit at column block 0; every weight and bias window stays at block 0. -/
theorem idx_facts : ∀ t : Fin cfg0.N, win0_0.index t (0 : Fin 2) = t.val
    ∧ win0_0.index t (1 : Fin 2) = 0
    ∧ win0_9.index t (0 : Fin 2) = t.val
    ∧ win0_9.index t (1 : Fin 2) = 0
    ∧ win0_1.index t (0 : Fin 2) = 0
    ∧ win0_1.index t (1 : Fin 2) = 0
    ∧ win0_2.index t (0 : Fin 1) = 0
    ∧ win0_3.index t (0 : Fin 2) = 0
    ∧ win0_3.index t (1 : Fin 2) = 0
    ∧ win0_4.index t (0 : Fin 1) = 0
    ∧ win0_5.index t (0 : Fin 2) = 0
    ∧ win0_5.index t (1 : Fin 2) = 0
    ∧ win0_6.index t (0 : Fin 1) = 0
    ∧ win0_7.index t (0 : Fin 2) = 0
    ∧ win0_7.index t (1 : Fin 2) = 0
    ∧ win0_8.index t (0 : Fin 1) = 0 :=
  (by decide +kernel : ∀ t : Fin grid0.N, _)

/-- Row `r` of the state window's block at point `t` is row `2048·t + r` of the state matrix. -/
theorem blk0_row (c : Dev nD) (t : Fin cfg0.N) (r : Fin 2048) (k : Fin 512) :
    iblk m c 0 t (ix2 r k) = V m c main_arg0 (ix2 (tileRow t r) k) := by
  obtain ⟨e0, e1, e2, e3, e4, e5, e6, e7, e8, e9, e10, e11, e12, e13, e14, e15⟩ := idx_facts t
  show V m c main_arg0 (((cfg0.win 0).blk t).view.emb (ix2 r k)) = V m c main_arg0 (ix2 (tileRow t r) k)
  refine congrArg (V m c main_arg0) (funext fun a => Fin.ext ?_)
  match a with
  | ⟨0, _⟩ => show win0_0.index t (0 : Fin 2) * 2048 + 1 * r.val = t.val * 2048 + r.val; rw [e0]; omega
  | ⟨1, _⟩ => show win0_0.index t (1 : Fin 2) * 512 + 1 * k.val = k.val; rw [e1]; omega

/-- Window 1's block at every point is the whole array: its index map is constantly zero and its block is the array's shape. -/
theorem blk1_whole (c : Dev nD) (t : Fin cfg0.N) : iblk m c 1 t = V m c main_arg1 := by
  obtain ⟨e0, e1, e2, e3, e4, e5, e6, e7, e8, e9, e10, e11, e12, e13, e14, e15⟩ := idx_facts t
  funext j
  show V m c main_arg1 (((cfg0.win 1).blk t).view.emb j) = V m c main_arg1 j
  refine congrArg (V m c main_arg1) (funext fun a => Fin.ext ?_)
  match a with
  | ⟨0, _⟩ => show win0_1.index t (0 : Fin 2) * 512 + 1 * (j 0).val = (j 0).val; rw [e4]; omega
  | ⟨1, _⟩ => show win0_1.index t (1 : Fin 2) * 500 + 1 * (j 1).val = (j 1).val; rw [e5]; omega

/-- Window 2's block at every point is the whole array: its index map is constantly zero and its block is the array's shape. -/
theorem blk2_whole (c : Dev nD) (t : Fin cfg0.N) : iblk m c 2 t = V m c main_arg2 := by
  obtain ⟨e0, e1, e2, e3, e4, e5, e6, e7, e8, e9, e10, e11, e12, e13, e14, e15⟩ := idx_facts t
  funext j
  show V m c main_arg2 (((cfg0.win 2).blk t).view.emb j) = V m c main_arg2 j
  refine congrArg (V m c main_arg2) (funext fun a => Fin.ext ?_)
  match a with
  | ⟨0, _⟩ => show win0_2.index t (0 : Fin 1) * 500 + 1 * (j 0).val = (j 0).val; rw [e6]; omega

/-- Window 3's block at every point is the whole array: its index map is constantly zero and its block is the array's shape. -/
theorem blk3_whole (c : Dev nD) (t : Fin cfg0.N) : iblk m c 3 t = V m c main_arg3 := by
  obtain ⟨e0, e1, e2, e3, e4, e5, e6, e7, e8, e9, e10, e11, e12, e13, e14, e15⟩ := idx_facts t
  funext j
  show V m c main_arg3 (((cfg0.win 3).blk t).view.emb j) = V m c main_arg3 j
  refine congrArg (V m c main_arg3) (funext fun a => Fin.ext ?_)
  match a with
  | ⟨0, _⟩ => show win0_3.index t (0 : Fin 2) * 500 + 1 * (j 0).val = (j 0).val; rw [e7]; omega
  | ⟨1, _⟩ => show win0_3.index t (1 : Fin 2) * 300 + 1 * (j 1).val = (j 1).val; rw [e8]; omega

/-- Window 4's block at every point is the whole array: its index map is constantly zero and its block is the array's shape. -/
theorem blk4_whole (c : Dev nD) (t : Fin cfg0.N) : iblk m c 4 t = V m c main_arg4 := by
  obtain ⟨e0, e1, e2, e3, e4, e5, e6, e7, e8, e9, e10, e11, e12, e13, e14, e15⟩ := idx_facts t
  funext j
  show V m c main_arg4 (((cfg0.win 4).blk t).view.emb j) = V m c main_arg4 j
  refine congrArg (V m c main_arg4) (funext fun a => Fin.ext ?_)
  match a with
  | ⟨0, _⟩ => show win0_4.index t (0 : Fin 1) * 300 + 1 * (j 0).val = (j 0).val; rw [e9]; omega

/-- Window 5's block at every point is the whole array: its index map is constantly zero and its block is the array's shape. -/
theorem blk5_whole (c : Dev nD) (t : Fin cfg0.N) : iblk m c 5 t = V m c main_arg5 := by
  obtain ⟨e0, e1, e2, e3, e4, e5, e6, e7, e8, e9, e10, e11, e12, e13, e14, e15⟩ := idx_facts t
  funext j
  show V m c main_arg5 (((cfg0.win 5).blk t).view.emb j) = V m c main_arg5 j
  refine congrArg (V m c main_arg5) (funext fun a => Fin.ext ?_)
  match a with
  | ⟨0, _⟩ => show win0_5.index t (0 : Fin 2) * 300 + 1 * (j 0).val = (j 0).val; rw [e10]; omega
  | ⟨1, _⟩ => show win0_5.index t (1 : Fin 2) * 100 + 1 * (j 1).val = (j 1).val; rw [e11]; omega

/-- Window 6's block at every point is the whole array: its index map is constantly zero and its block is the array's shape. -/
theorem blk6_whole (c : Dev nD) (t : Fin cfg0.N) : iblk m c 6 t = V m c main_arg6 := by
  obtain ⟨e0, e1, e2, e3, e4, e5, e6, e7, e8, e9, e10, e11, e12, e13, e14, e15⟩ := idx_facts t
  funext j
  show V m c main_arg6 (((cfg0.win 6).blk t).view.emb j) = V m c main_arg6 j
  refine congrArg (V m c main_arg6) (funext fun a => Fin.ext ?_)
  match a with
  | ⟨0, _⟩ => show win0_6.index t (0 : Fin 1) * 100 + 1 * (j 0).val = (j 0).val; rw [e12]; omega

/-- Window 7's block at every point is the whole array: its index map is constantly zero and its block is the array's shape. -/
theorem blk7_whole (c : Dev nD) (t : Fin cfg0.N) : iblk m c 7 t = V m c main_arg7 := by
  obtain ⟨e0, e1, e2, e3, e4, e5, e6, e7, e8, e9, e10, e11, e12, e13, e14, e15⟩ := idx_facts t
  funext j
  show V m c main_arg7 (((cfg0.win 7).blk t).view.emb j) = V m c main_arg7 j
  refine congrArg (V m c main_arg7) (funext fun a => Fin.ext ?_)
  match a with
  | ⟨0, _⟩ => show win0_7.index t (0 : Fin 2) * 100 + 1 * (j 0).val = (j 0).val; rw [e13]; omega
  | ⟨1, _⟩ => show win0_7.index t (1 : Fin 2) * 64 + 1 * (j 1).val = (j 1).val; rw [e14]; omega

/-- Window 8's block at every point is the whole array: its index map is constantly zero and its block is the array's shape. -/
theorem blk8_whole (c : Dev nD) (t : Fin cfg0.N) : iblk m c 8 t = V m c main_arg8 := by
  obtain ⟨e0, e1, e2, e3, e4, e5, e6, e7, e8, e9, e10, e11, e12, e13, e14, e15⟩ := idx_facts t
  funext j
  show V m c main_arg8 (((cfg0.win 8).blk t).view.emb j) = V m c main_arg8 j
  refine congrArg (V m c main_arg8) (funext fun a => Fin.ext ?_)
  match a with
  | ⟨0, _⟩ => show win0_8.index t (0 : Fin 1) * 64 + 1 * (j 0).val = (j 0).val; rw [e15]; omega

/-- Entry `(r, q)` of the result window's block at point `t` is entry `(2048·t + r, q)` of the result array. -/
theorem blk9_emb (t : Fin cfg0.N) (r : Fin 2048) (q : Fin 64) :
    ((cfg0.win 9).blk t).view.emb (ix2 r q) = ix2 (tileRow t r) q := by
  obtain ⟨e0, e1, e2, e3, e4, e5, e6, e7, e8, e9, e10, e11, e12, e13, e14, e15⟩ := idx_facts t
  refine funext fun a => Fin.ext ?_
  match a with
  | ⟨0, _⟩ => show win0_9.index t (0 : Fin 2) * 2048 + 1 * r.val = t.val * 2048 + r.val; rw [e2]; omega
  | ⟨1, _⟩ => show win0_9.index t (1 : Fin 2) * 64 + 1 * q.val = q.val; rw [e3]; omega

/-- The body's value on a tile, at `(r, q)`, is the plain program's result at `(n r, q)`, when the tile's state rows are the
    rows `n r` of the state matrix and the other blocks are the whole weights and biases: the four layers row by row,
    then each row's gate and normalisation. -/
theorem tile_value (xb : FVec Ideal S2048x512 .f32) (w1 : FVec Ideal S512x500 .f32) (b1 : FVec Ideal S500 .f32)
    (w2 : FVec Ideal S500x300 .f32) (b2 : FVec Ideal S300 .f32) (w3 : FVec Ideal S300x100 .f32) (b3 : FVec Ideal S100 .f32)
    (w4 : FVec Ideal S100x64 .f32) (b4 : FVec Ideal S64 .f32)
    (x0 : FVec Ideal Cert.ReferenceIdeal.S65536x512 .f32) (x1 : FVec Ideal Cert.ReferenceIdeal.S512x500 .f32) (x2 : FVec Ideal Cert.ReferenceIdeal.S500 .f32) (x3 : FVec Ideal Cert.ReferenceIdeal.S500x300 .f32) (x4 : FVec Ideal Cert.ReferenceIdeal.S300 .f32) (x5 : FVec Ideal Cert.ReferenceIdeal.S300x100 .f32) (x6 : FVec Ideal Cert.ReferenceIdeal.S100 .f32) (x7 : FVec Ideal Cert.ReferenceIdeal.S100x64 .f32) (x8 : FVec Ideal Cert.ReferenceIdeal.S64 .f32)
    (n : Fin 2048 → Fin 65536) (hx : ∀ (r : Fin 2048) (k : Fin 512), xb (ix2 r k) = x0 (ix2 (n r) k))
    (h1 : w1 = x1) (h2 : b1 = x2) (h3 : w2 = x3) (h4 : b2 = x4) (h5 : w3 = x5) (h6 : b3 = x6) (h7 : w4 = x7) (h8 : b4 = x8)
    (r : Fin 2048) (q : Fin 64) :
    k0_pay1 (F := Ideal) (k0_pay2 xb w1 b1 w2 b2 w3 b3 w4 b4) (k0_pay3 xb w1 b1 w2 b2 w3 b3 w4 b4) (ix2 r q)
      = Cert.ReferenceIdeal.Read.val_main_v39 (F := Ideal) x0 x1 x2 x3 x4 x5 x6 x7 x8 (ix2 (n r) q) := by
  subst h1 h2 h3 h4 h5 h6 h7 h8
  exact gate_rows (k0_pay2 (F := Ideal) xb w1 b1 w2 b2 w3 b3 w4 b4) x0 w1 b1 w2 b2 w3 b3 w4 b4 n
    (fun r q => tile_v_rows xb x0 w1 b1 w2 b2 w3 b3 w4 b4 n hx r q) r q

/-- WHAT POINT `t` WRITES BACK is block `t` of the plain program's result of the launched arrays. -/
theorem flushed_eq (c : Dev nD) (t : Fin cfg0.N) :
    (dats m 0 c).flushed 9 t = ((cfg0.win 9).blk t).view.read (Elt Ideal) (wholeResult m c) := by
  rw [Cert.KernelIdeal.Value.flushed9]
  unfold out0_9
  rw [View.canon_unit_zero zeros2]
  simp only [View.ld_unit_zero (S := S2048x512) zeros2, View.ld_unit_zero (S := S512x500) zeros2, View.ld_unit_zero (S := S500) zeros1,
    View.ld_unit_zero (S := S500x300) zeros2, View.ld_unit_zero (S := S300) zeros1, View.ld_unit_zero (S := S300x100) zeros2,
    View.ld_unit_zero (S := S100) zeros1, View.ld_unit_zero (S := S100x64) zeros2, View.ld_unit_zero (S := S64) zeros1]
  funext j
  obtain ⟨r, q, rfl⟩ : ∃ (r : Fin 2048) (q : Fin 64), j = ix2 r q := ⟨j 0, j 1, eq_ix2 j⟩
  show k0_pay1 (F := Ideal) (k0_pay2 (iblk m c 0 t) (iblk m c 1 t) (iblk m c 2 t) (iblk m c 3 t) (iblk m c 4 t) (iblk m c 5 t) (iblk m c 6 t) (iblk m c 7 t) (iblk m c 8 t))
      (k0_pay3 (iblk m c 0 t) (iblk m c 1 t) (iblk m c 2 t) (iblk m c 3 t) (iblk m c 4 t) (iblk m c 5 t) (iblk m c 6 t) (iblk m c 7 t) (iblk m c 8 t)) (ix2 r q)
    = wholeResult m c (((cfg0.win 9).blk t).view.emb (ix2 r q))
  rw [blk9_emb]
  exact tile_value (iblk m c 0 t) (iblk m c 1 t) (iblk m c 2 t) (iblk m c 3 t) (iblk m c 4 t) (iblk m c 5 t) (iblk m c 6 t) (iblk m c 7 t) (iblk m c 8 t)
    (V m c main_arg0) (V m c main_arg1) (V m c main_arg2) (V m c main_arg3) (V m c main_arg4) (V m c main_arg5) (V m c main_arg6) (V m c main_arg7) (V m c main_arg8) (tileRow t) (fun r k => blk0_row m c t r k)
    (blk1_whole m c t) (blk2_whole m c t) (blk3_whole m c t) (blk4_whole m c t) (blk5_whole m c t) (blk6_whole m c t) (blk7_whole m c t) (blk8_whole m c t) r q

/-- An index of the result array is in point `t`'s block iff each coordinate is in the block's range on its axis. -/
theorem mem_blk9 (t : Fin cfg0.N) (i : S65536x64.Idx) :
    i ∈ ((cfg0.win 9).blk t).view.set ↔ ∀ a : Fin 2, win0_9.index t a * S2048x64.size a ≤ (i a).val ∧ (i a).val < win0_9.index t a * S2048x64.size a + S2048x64.size a := by
  show i ∈ ((View.whole main_v0).slice (win0_9.rect t)).set ↔ _
  rw [View.set_slice_whole, Rect.mem_set_unit]
  exact Iff.rfl

/-- Every index of the result array is in the block of the point its row falls in: row `i₀` belongs to point `i₀ / 2048`. -/
theorem cover9 (i : S65536x64.Idx) :
    ∃ t : Fin cfg0.N, (cfg0.win 9).flush t = true ∧ i ∈ ((cfg0.win 9).blk t).view.set := by
  have hi0 : (i 0).val < 65536 := (i 0).isLt
  have hi1 : (i 1).val < 64 := (i 1).isLt
  have hN : cfg0.N = 32 := N_0
  refine ⟨⟨(i 0).val / 2048, by omega⟩, flush0_9 _, ?_⟩
  rw [mem_blk9]
  obtain ⟨e0, e1, e2, e3, e4, e5, e6, e7, e8, e9, e10, e11, e12, e13, e14, e15⟩ := idx_facts ⟨(i 0).val / 2048, by omega⟩
  intro a
  match a with
  | ⟨0, _⟩ =>
    show win0_9.index _ (0 : Fin 2) * 2048 ≤ (i 0).val ∧ (i 0).val < win0_9.index _ (0 : Fin 2) * 2048 + 2048
    rw [e2]; show (i 0).val / 2048 * 2048 ≤ (i 0).val ∧ (i 0).val < (i 0).val / 2048 * 2048 + 2048; omega
  | ⟨1, _⟩ =>
    show win0_9.index _ (1 : Fin 2) * 64 ≤ (i 1).val ∧ (i 1).val < win0_9.index _ (1 : Fin 2) * 64 + 64
    rw [e3]; omega

/-- THE RESULT ARRAY after the run is the plain program's result of the launched arrays. -/
theorem final9 (c : Dev nD) : (dats m 0 c).arrAt 9 cfg0.N = wholeResult m c :=
  (dats m 0 c).arrAt_eq_of_cover 9 (wholeResult m c) (fun t _ => flushed_eq m c t) cover9

/-- The kernel's run re-posted: the result array at the plain program's result of the arguments, the arguments unchanged. -/
theorem run : θ_run defs (onTc (τ := τ) (main (F := Ideal))) ⟨m, fun _ => 0, ρ⟩ fun r => ∀ c : Dev nD,
      r.2.mem ((c : Thread nD τ).loc main_v0) = Cert.ReferenceIdeal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final9 m c), (h c).2⟩) (Cert.KernelIdeal.Value.run_blocks m ρ)

end Cert.Bridge

end
-- ==== Proof.lean ====
/-
  A four-layer perceptron with a gated, normalised output, tiled over its rows, against the plain program.

  The kernel walks the 65536 rows of the state matrix in 32 tiles of 2048 rows, keeping the four weight matrices and
  bias vectors whole. On a tile it computes three layers `h ↦ max (h · W + b) 0` (512 → 500 → 300 → 100; the products
  by a matrix unit over operands narrowed to bf16, accumulated into zeros), a fourth layer `v = h · W₄ + b₄` (100 → 64,
  in f32), and then for each row: `t = tanh` of the first 63 entries of `v`, `s` the logistic function of the last
  entry, the sum `p` of the positive `t`, each positive `t` divided by `p` (by 1 when `p = 0`), and the row
  `[t', s]`. The plain program does the same on all rows at once with `dot_general`, a reduce and `1 / (1 + exp (-x))`.

  Over the extended reals narrowing is the identity, both kinds of product are the sum over the contracted index of the
  entrywise products, the lane sum and the reduce are the same finite sum, and the logistic function IS
  `1 / (1 + exp (-x))`. Every step acts on each row by itself, so row `r` of tile `t` is row `2048·t + r` of the
  plain program's result (Proof/Rows.lean for the layers, Proof/Epilogue.lean for the rest of the row); the tiles'
  blocks cover the result array, so the kernel's run leaves exactly the plain program's result of the same arguments
  (Proof/KernelValue.lean). No step uses that the inputs are finite: only commutativity and associativity of a
  finite sum join the two sides. The kernel read over the extended reals is the word-level kernel's own text with nothing
  rewritten, so `preserves` has no conjunct.
-/
import proofs.«130117_j33698313404514_1_alg».proof.Defs
import proofs.«130117_j33698313404514_1_alg».proof.Proof.Gen.Kernel
import proofs.«130117_j33698313404514_1_alg».proof.Proof.Gen.Kernel.Skeleton
import proofs.«130117_j33698313404514_1_alg».proof.Proof.Gen.Kernel.Launch
import proofs.«130117_j33698313404514_1_alg».proof.Proof.Gen.Kernel.Points
import proofs.«130117_j33698313404514_1_alg».proof.Proof.Gen.Kernel.Frame
import proofs.«130117_j33698313404514_1_alg».proof.Proof.Gen.KernelIdeal
import proofs.«130117_j33698313404514_1_alg».proof.Proof.Gen.KernelIdeal.Skeleton
import proofs.«130117_j33698313404514_1_alg».proof.Proof.Gen.KernelIdeal.Launch
import proofs.«130117_j33698313404514_1_alg».proof.Proof.Gen.KernelIdeal.Points
import proofs.«130117_j33698313404514_1_alg».proof.Proof.Gen.KernelIdeal.Frame
import proofs.«130117_j33698313404514_1_alg».proof.Proof.Gen.ReferenceIdeal
import proofs.«130117_j33698313404514_1_alg».proof.Proof.Gen.Pre_finite_inputs
import proofs.«130117_j33698313404514_1_alg».proof.Proof.Gen.KernelIdeal.Value
import proofs.«130117_j33698313404514_1_alg».proof.Proof.Gen.ReferenceIdeal.Run
import proofs.«130117_j33698313404514_1_alg».proof.Proof.Gen.ReferenceIdeal.Read
import proofs.«130117_j33698313404514_1_alg».proof.Proof.KernelValue
import Idealize.ShloMosaic.Adequacy
import Idealize.ShloMosaic.Init

noncomputable section

namespace Cert.Proof

open Idealize.ShloMosaic Idealize.SL.Sem

/-- The word-level kernel terminates without a fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The plain program is a straight line of host operations: it terminates with its arguments unchanged. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten on the way to the ideal reading. -/
theorem preserves : Cert.preserves_Kernel_KernelIdeal := trivial

/-- From memories agreeing on the nine arguments both programs end with the same result array: the kernel's run leaves
    the plain program's result of ITS arguments, the plain program's run the same function of its own, and the
    arguments agree. -/
theorem algebraic : Cert.algebraic_KernelIdeal_ReferenceIdeal := by
  intro m ρ m' ρ' _ hagree
  refine ⟨_, Cert.Bridge.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v39_eq]
  obtain ⟨h0, h1, h2, h3, h4, h5, h6, h7, h8⟩ := hagree c
  rw [h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
